-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64 : Shape := ⟨2, ![8, 64]⟩
abbrev S8x50000x64 : Shape := ⟨3, ![8, 50000, 64]⟩
abbrev S64x64 : Shape := ⟨2, ![64, 64]⟩
abbrev S64 : Shape := ⟨1, ![64]⟩
abbrev S1x64 : Shape := ⟨2, ![1, 64]⟩
abbrev S401x64 : Shape := ⟨2, ![401, 64]⟩
abbrev S1000000 : Shape := ⟨1, ![1000000]⟩
abbrev S_ : Shape := ⟨0, ![]⟩

class Facts : Prop where
  bcast_S_S8x64 : S_.BroadcastsInDim S8x64 (![] : Fin 0 → Fin S8x64.rank)
  reducesTo_S8x64_S_d0_1 : S8x64.ReducesTo [0, 1] S_
  h_S_ : 0 < S_.numel
  bcast_S_S8x50000x64 : S_.BroadcastsInDim S8x50000x64 (![] : Fin 0 → Fin S8x50000x64.rank)
  reducesTo_S8x50000x64_S_d0_1_2 : S8x50000x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S401x64 : S_.BroadcastsInDim S401x64 (![] : Fin 0 → Fin S401x64.rank)
  reducesTo_S401x64_S_d0_1 : S401x64.ReducesTo [0, 1] S_
  bcast_S_S1000000 : S_.BroadcastsInDim S1000000 (![] : Fin 0 → Fin S1000000.rank)
  reducesTo_S1000000_S_d0 : S1000000.ReducesTo [0] S_

variable [Facts]

def fn_part4 {F : FTy → Type} [FloatOps F] (main_arg13 : IVec S1000000 32) (main_arg14 : IVec S1000000 32) (main_v65 : IVec S_ 1) (main_v67 : IVec S1000000 1) : IVec S_ 1 :=
  let main_c_26 : IVec S_ 32 := constantI S_ 32 400000#32
  let main_v68 : IVec S1000000 32 := broadcastInDim S1000000 ![] bcast_S_S1000000 main_c_26
  let main_v69 : IVec S1000000 1 := cmpi .slt main_arg13 main_v68
  let main_v70 : IVec S1000000 1 := andi main_v67 main_v69
  let main_c_27 : IVec S_ 1 := constantI S_ 1 1#1
  let main_v71 : IVec S_ 1 := (fun x v => Host.reduce IntOp.andi x v reducesTo_S1000000_S_d0 h_S_) main_v70 main_c_27
  let main_v72 : IVec S_ 1 := andi main_v65 main_v71
  let main_c_28 : IVec S_ 32 := constantI S_ 32 0#32
  let main_v73 : IVec S1000000 32 := broadcastInDim S1000000 ![] bcast_S_S1000000 main_c_28
  let main_v74 : IVec S1000000 1 := cmpi .sge main_arg14 main_v73
  let main_c_29 : IVec S_ 32 := constantI S_ 32 401#32
  let main_v75 : IVec S1000000 32 := broadcastInDim S1000000 ![] bcast_S_S1000000 main_c_29
  let main_v76 : IVec S1000000 1 := cmpi .slt main_arg14 main_v75
  let main_v77 : IVec S1000000 1 := andi main_v74 main_v76
  let main_c_30 : IVec S_ 1 := constantI S_ 1 1#1
  let main_v78 : IVec S_ 1 := (fun x v => Host.reduce IntOp.andi x v reducesTo_S1000000_S_d0 h_S_) main_v77 main_c_30
  let main_v79 : IVec S_ 1 := andi main_v72 main_v78
  main_v79

def fn_part3 {F : FTy → Type} [FloatOps F] (main_arg11 : FVec F S64 .f32) (main_arg12 : IVec S1000000 32) (main_arg13 : IVec S1000000 32) (main_arg14 : IVec S1000000 32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S1000000 32 := broadcastInDim S1000000 ![] bcast_S_S1000000 main_c_22
  let main_v60 : IVec S1000000 1 := cmpi .sge main_arg12 main_v59
  let main_c_23 : IVec S_ 32 := constantI S_ 32 8#32
  let main_v61 : IVec S1000000 32 := broadcastInDim S1000000 ![] bcast_S_S1000000 main_c_23
  let main_v62 : IVec S1000000 1 := cmpi .slt main_arg12 main_v61
  let main_v63 : IVec S1000000 1 := andi main_v60 main_v62
  let main_c_24 : IVec S_ 1 := constantI S_ 1 1#1
  let main_v64 : IVec S_ 1 := (fun x v => Host.reduce IntOp.andi x v reducesTo_S1000000_S_d0 h_S_) main_v63 main_c_24
  let main_v65 : IVec S_ 1 := andi main_v58 main_v64
  let main_c_25 : IVec S_ 32 := constantI S_ 32 0#32
  let main_v66 : IVec S1000000 32 := broadcastInDim S1000000 ![] bcast_S_S1000000 main_c_25
  let main_v67 : IVec S1000000 1 := cmpi .sge main_arg13 main_v66
  fn_part4 (F := F) main_arg13 main_arg14 main_v65 main_v67

def fn_part2 {F : FTy → Type} [FloatOps F] (main_arg7 : FVec F S401x64 .f32) (main_arg8 : FVec F S64x64 .f32) (main_arg9 : FVec F S64 .f32) (main_arg10 : FVec F S64x64 .f32) (main_arg11 : FVec F S64 .f32) (main_arg12 : IVec S1000000 32) (main_arg13 : IVec S1000000 32) (main_arg14 : IVec S1000000 32) (main_v33 : IVec S_ 1) : IVec S_ 1 :=
  let main_v34 : FVec F S401x64 .f32 := Host.absf main_arg7
  let main_cst_12 : FVec F S_ .f32 := constant S_ .f32 0x7F800000#32
  let main_v35 : FVec F S401x64 .f32 := broadcastInDim S401x64 ![] bcast_S_S401x64 main_cst_12
  let main_v36 : IVec S401x64 1 := cmpf .olt main_v34 main_v35
  let main_c_13 : IVec S_ 1 := constantI S_ 1 1#1
  let main_v37 : IVec S_ 1 := (fun x v => Host.reduce IntOp.andi x v reducesTo_S401x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_v48 main_v49 main_v50

def fn_part1 {F : FTy → Type} [FloatOps F] (main_arg4 : FVec F S64x64 .f32) (main_arg5 : FVec F S64 .f32) (main_arg6 : FVec F S1x64 .f32) (main_arg7 : FVec F S401x64 .f32) (main_arg8 : FVec F S64x64 .f32) (main_arg9 : FVec F S64 .f32) (main_arg10 : FVec F S64x64 .f32) (main_arg11 : FVec F S64 .f32) (main_arg12 : IVec S1000000 32) (main_arg13 : IVec S1000000 32) (main_arg14 : IVec S1000000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8x64 .f32) (main_arg1 : FVec F S8x50000x64 .f32) (main_arg2 : FVec F S64x64 .f32) (main_arg3 : FVec F S64x64 .f32) (main_arg4 : FVec F S64x64 .f32) (main_arg5 : FVec F S64 .f32) (main_arg6 : FVec F S1x64 .f32) (main_arg7 : FVec F S401x64 .f32) (main_arg8 : FVec F S64x64 .f32) (main_arg9 : FVec F S64 .f32) (main_arg10 : FVec F S64x64 .f32) (main_arg11 : FVec F S64 .f32) (main_arg12 : IVec S1000000 32) (main_arg13 : IVec S1000000 32) (main_arg14 : IVec S1000000 32) (main_arg15 : IVec S1000000 32) : IVec S_ 1 :=
  let main_v0 : FVec F S8x64 .f32 := Host.absf main_arg0
  let main_cst : FVec F S_ .f32 := constant S_ .f32 0x7F800000#32
  let main_v1 : FVec F S8x64 .f32 := broadcastInDim S8x64 ![] bcast_S_S8x64 main_cst
  let main_v2 : IVec S8x64 1 := cmpf .olt main_v0 main_v1
  let main_c : IVec S_ 1 := constantI S_ 1 1#1
  let main_v3 : IVec S_ 1 := (fun x v => Host.reduce IntOp.andi x v reducesTo_S8x64_S_d0_1 h_S_) main_v2 main_c
  let main_v4 : FVec F S8x50000x64 .f32 := Host.absf main_arg1
  let main_cst_0 : FVec F S_ .f32 := constant S_ .f32 0x7F800000#32
  let main_v5 : FVec F S8x50000x64 .f32 := broadcastInDim S8x50000x64 ![] bcast_S_S8x50000x64 main_cst_0
  let main_v6 : IVec S8x50000x64 1 := cmpf .olt main_v4 main_v5
  let main_c_1 : IVec S_ 1 := constantI S_ 1 1#1
  let main_v7 : IVec S_ 1 := (fun x v => Host.reduce IntOp.andi x v reducesTo_S8x50000x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8x64 : Shape := ⟨2, ![8, 64]⟩
abbrev S8x50000x64 : Shape := ⟨3, ![8, 50000, 64]⟩
abbrev S64x64 : Shape := ⟨2, ![64, 64]⟩
abbrev S64 : Shape := ⟨1, ![64]⟩
abbrev S1x64 : Shape := ⟨2, ![1, 64]⟩
abbrev S401x64 : Shape := ⟨2, ![401, 64]⟩
abbrev S1000000 : Shape := ⟨1, ![1000000]⟩
abbrev S400000x64 : Shape := ⟨2, ![400000, 64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S5000x64 : Shape := ⟨2, ![5000, 64]⟩
abbrev S64x1 : Shape := ⟨2, ![64, 1]⟩
abbrev S5000x1 : Shape := ⟨2, ![5000, 1]⟩
abbrev S400000 : Shape := ⟨1, ![400000]⟩
abbrev S400000x1 : Shape := ⟨2, ![400000, 1]⟩

abbrev nBuf : Space → Nat
  | .hbm => 107
  | .vmem => 23
  | .smem => 0
  | _ => 0

abbrev bufTy : (tb : Table) → Fin (tcTables nBuf tb) → BufTy
  | .hbm, ⟨0, _⟩ => ⟨S8x64, .f32⟩
  | .hbm, ⟨1, _⟩ => ⟨S8x50000x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S401x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S400000x64, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1, .i32⟩
  | .hbm, ⟨26, _⟩ => ⟨S_, .i32⟩
  | .hbm, ⟨27, _⟩ => ⟨S1000000x1, .i32⟩
  | .hbm, ⟨28, _⟩ => ⟨S1000000x1, .i1⟩
  | .hbm, ⟨29, _⟩ => ⟨S1x1, .i32⟩
  | .hbm, ⟨30, _⟩ => ⟨S1000000x1, .i32⟩
  | .hbm, ⟨31, _⟩ => ⟨S1000000x1, .i1⟩
  | .hbm, ⟨32, _⟩ => ⟨S1000000x1, .i1⟩
  | .hbm, ⟨33, _⟩ => ⟨S_, .i1⟩
  | .hbm, ⟨34, _⟩ => ⟨S1000000, .i1⟩
  | .hbm, ⟨35, _⟩ => ⟨S1000000x64, .f32⟩
  | .hbm, ⟨36, _⟩ => ⟨S1000000x64, .i1⟩
  | .hbm, ⟨37, _⟩ => ⟨S_, .f32⟩
  | .hbm, ⟨38, _⟩ => ⟨S1000000x64, .f32⟩
  | .hbm, ⟨39, _⟩ => ⟨S1000000x64, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1, .i32⟩
  | .hbm, ⟨49, _⟩ => ⟨S_, .i32⟩
  | .hbm, ⟨50, _⟩ => ⟨S1000000x1, .i32⟩
  | .hbm, ⟨51, _⟩ => ⟨S1000000x1, .i1⟩
  | .hbm, ⟨52, _⟩ => ⟨S1x1, .i32⟩
  | .hbm, ⟨53, _⟩ => ⟨S1000000x1, .i32⟩
  | .hbm, ⟨54, _⟩ => ⟨S1000000x1, .i1⟩
  | .hbm, ⟨55, _⟩ => ⟨S1000000x1, .i1⟩
  | .hbm, ⟨56, _⟩ => ⟨S_, .i1⟩
  | .hbm, ⟨57, _⟩ => ⟨S1000000, .i1⟩
  | .hbm, ⟨58, _⟩ => ⟨S1000000x64, .f32⟩
  | .hbm, ⟨59, _⟩ => ⟨S1000000x64, .i1⟩
  | .hbm, ⟨60, _⟩ => ⟨S_, .f32⟩
  | .hbm, ⟨61, _⟩ => ⟨S1000000x64, .f32⟩
  | .hbm, ⟨62, _⟩ => ⟨S1000000x64, .f32⟩
  | .hbm, ⟨63, _⟩ => ⟨S_, .i32⟩
  | .hbm, ⟨64, _⟩ => ⟨S1000000, .i32⟩
  | .hbm, ⟨65, _⟩ => ⟨S1000000, .i1⟩
  | .hbm, ⟨66, _⟩ => ⟨S_, .i32⟩
  | .hbm, ⟨67, _⟩ => ⟨S1000000, .i32⟩
  | .hbm, ⟨68, _⟩ => ⟨S1000000, .i32⟩
  | .hbm, ⟨69, _⟩ => ⟨S1000000, .i32⟩
  | .hbm, ⟨70, _⟩ => ⟨S1000000x1, .i32⟩
  | .hbm, ⟨71, _⟩ => ⟨S1, .i32⟩
  | .hbm, ⟨72, _⟩ => ⟨S_, .i32⟩
  | .hbm, ⟨73, _⟩ => ⟨S1000000x1, .i32⟩
  | .hbm, ⟨74, _⟩ => ⟨S1000000x1, .i1⟩
  | .hbm, ⟨75, _⟩ => ⟨S1x1, .i32⟩
  | .hbm, ⟨76, _⟩ => ⟨S1000000x1, .i32⟩
  | .hbm, ⟨77, _⟩ => ⟨S1000000x1, .i1⟩
  | .hbm, ⟨78, _⟩ => ⟨S1000000x1, .i1⟩
  | .hbm, ⟨79, _⟩ => ⟨S_, .i1⟩
  | .hbm, ⟨80, _⟩ => ⟨S1000000, .i1⟩
  | .hbm, ⟨81, _⟩ => ⟨S1000000x64, .f32⟩
  | .hbm, ⟨82, _⟩ => ⟨S1000000x64, .i1⟩
  | .hbm, ⟨83, _⟩ => ⟨S_, .f32⟩
  | .hbm, ⟨84, _⟩ => ⟨S1000000x64, .f32⟩
  | .hbm, ⟨85, _⟩ => ⟨S1000000x64, .f32⟩
  | .hbm, ⟨86, _⟩ => ⟨S1000000x64, .f32⟩
  | .hbm, ⟨87, _⟩ => ⟨S_, .f32⟩
  | .hbm, ⟨88, _⟩ => ⟨S400000x64, .f32⟩
  | .hbm, ⟨89, _⟩ => ⟨S1000000x1, .i32⟩
  | .hbm, ⟨90, _⟩ => ⟨S400000x64, .f32⟩
  | .hbm, ⟨91, _⟩ => ⟨S_, .f32⟩
  | .hbm, ⟨92, _⟩ => ⟨S400000, .f32⟩
  | .hbm, ⟨93, _⟩ => ⟨S_, .i32⟩
  | .hbm, ⟨94, _⟩ => ⟨S1000000, .i32⟩
  | .hbm, ⟨95, _⟩ => ⟨S1000000, .i1⟩
  | .hbm, ⟨96, _⟩ => ⟨S_, .i32⟩
  | .hbm, ⟨97, _⟩ => ⟨S1000000, .i32⟩
  | .hbm, ⟨98, _⟩ => ⟨S1000000, .i32⟩
  | .hbm, ⟨99, _⟩ => ⟨S1000000, .i32⟩
  | .hbm, ⟨100, _⟩ => ⟨S1000000x1, .i32⟩
  | .hbm, ⟨101, _⟩ => ⟨S_, .f32⟩
  | .hbm, ⟨102, _⟩ => ⟨S1000000, .f32⟩
  | .hbm, ⟨103, _⟩ => ⟨S400000, .f32⟩
  | .hbm, ⟨104, _⟩ => ⟨S400000x1, .f32⟩
  | .hbm, ⟨105, _⟩ => ⟨S400000x64, .f32⟩
  | .hbm, ⟨106, _⟩ => ⟨S8x50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64, .f32⟩
  | .local _ .vmem, ⟨19, _⟩ => ⟨S64x64, .f32⟩
  | .local _ .vmem, ⟨20, _⟩ => ⟨S64, .f32⟩
  | .local _ .vmem, ⟨21, _⟩ => ⟨S5000x64, .f32⟩
  | .local _ .vmem, ⟨22, _⟩ => ⟨S5000x64, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v1 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v2 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v3 : Ref sig .tc := ⟨.hbm, 85, rfl⟩
abbrev main_v4 : Ref sig .tc := ⟨.hbm, 86, rfl⟩
abbrev main_cst : Ref sig .tc := ⟨.hbm, 87, rfl⟩
abbrev main_v5 : Ref sig .tc := ⟨.hbm, 88, rfl⟩
abbrev main_v6 : Ref sig .tc := ⟨.hbm, 89, rfl⟩
abbrev main_v7 : Ref sig .tc := ⟨.hbm, 90, rfl⟩
abbrev main_cst_0 : Ref sig .tc := ⟨.hbm, 91, rfl⟩
abbrev main_v8 : Ref sig .tc := ⟨.hbm, 92, rfl⟩
abbrev main_c : Ref sig .tc := ⟨.hbm, 93, rfl⟩
abbrev main_v9 : Ref sig .tc := ⟨.hbm, 94, rfl⟩
abbrev main_v10 : Ref sig .tc := ⟨.hbm, 95, rfl⟩
abbrev main_c_1 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_cst_2 : Ref sig .tc := ⟨.hbm, 101, rfl⟩
abbrev main_v15 : Ref sig .tc := ⟨.hbm, 102, rfl⟩
abbrev main_v16 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S8x50000x64_S400000x64 : S8x50000x64.ShapeCasts S400000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S1x64_S1x64_0_0 : ∀ a, (![0, 0] : Fin 2 → Nat) a + S1x64.size a ≤ S1x64.size a
  h_S1x64 : 0 < S1x64.numel
  transposes_S1x64_p1_0_S64x1 : S1x64.Transposes [1, 0] S64x1
  broadcasts_S5000x1_S5000x64 : S5000x1.Broadcasts S5000x64
  bcast_S_S400000x64 : S_.BroadcastsInDim S400000x64 (![] : Fin 0 → Fin S400000x64.rank)
  bcast_S_S400000 : S_.BroadcastsInDim S400000 (![] : Fin 0 → Fin S400000.rank)
  shapeCasts_S400000_S400000x1 : S400000.ShapeCasts S400000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S400000x64_S8x50000x64 : S400000x64.ShapeCasts S8x50000x64
  gather_S400000x64_S1000000x1_S1000000x64_1_0_n_n_0_1_164_wf : GatherDims.WF S400000x64 S1000000x1 S1000000x64 [1] [0] [] [0] [] 1 ![1, 64]
  gather_S401x64_S1000000x1_S1000000x64_1_0_n_n_0_1_164_wf : GatherDims.WF S401x64 S1000000x1 S1000000x64 [1] [0] [] [0] [] 1 ![1, 64]
  gather_S8x64_S1000000x1_S1000000x64_1_0_n_n_0_1_164_wf : GatherDims.WF S8x64 S1000000x1 S1000000x64 [1] [0] [] [0] [] 1 ![1, 64]
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  scatter_S400000x64_S1000000x1_S1000000x64_1_0_0_1_wf : ScatterDims.WF S400000x64 S1000000x1 S1000000x64 [1] [0] [0] 1
  scatter_S400000_S1000000x1_S1000000_n_0_0_1_wf : ScatterDims.WF S400000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1000000x64.size a
  hwx0_1 : ∀ i : grid0.Coords, EltTy.bits .f32 = 32 ∨ (Rect.block (s := S1000000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1000000x64.size a
  hwx0_2 : ∀ i : grid0.Coords, EltTy.bits .f32 = 32 ∨ (Rect.block (s := S1000000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S1000000x64.size a
  hwx0_8 : ∀ i : grid0.Coords, EltTy.bits .f32 = 32 ∨ (Rect.block (s := S1000000x64) S5000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S400000x64.size a
  hwx1_0 : ∀ i : grid1.Coords, EltTy.bits .f32 = 32 ∨ (Rect.block (s := S400000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S400000x1.size a
  hwx1_1 : ∀ i : grid1.Coords, EltTy.bits .f32 = 32 ∨ (Rect.block (s := S400000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S400000x64.size a
  hwx1_6 : ∀ i : grid1.Coords, EltTy.bits .f32 = 32 ∨ (Rect.block (s := S400000x64) S5000x64.size (cc1_transform_6 i) (hinb1_6 i)).WholeWords (EltTy.packing .f32)

variable [Facts₀]

def gather_S400000x64_S1000000x1_S1000000x64_1_0_n_n_0_1_164 : GatherDims S400000x64 S1000000x1 S1000000x64 where
  offsetDims := [1]
  collapsedSliceDims := [0]
  operandBatchingDims := []
  startIndicesBatchingDims := []
  startIndexMap := [0]
  indexVectorDim := 1
  sliceSizes := ![1, 64]
  wf := gather_S400000x64_S1000000x1_S1000000x64_1_0_n_n_0_1_164_wf
def gather_S401x64_S1000000x1_S1000000x64_1_0_n_n_0_1_164 : GatherDims S401x64 S1000000x1 S1000000x64 where
  offsetDims := [1]
  collapsedSliceDims := [0]
  operandBatchingDims := []
  startIndicesBatchingDims := []
  startIndexMap := [0]
  indexVectorDim := 1
  sliceSizes := ![1, 64]
  wf := gather_S401x64_S1000000x1_S1000000x64_1_0_n_n_0_1_164_wf
def gather_S8x64_S1000000x1_S1000000x64_1_0_n_n_0_1_164 : GatherDims S8x64 S1000000x1 S1000000x64 where
  offsetDims := [1]
  collapsedSliceDims := [0]
  operandBatchingDims := []
  startIndicesBatchingDims := []
  startIndexMap := [0]
  indexVectorDim := 1
  sliceSizes := ![1, 64]
  wf := gather_S8x64_S1000000x1_S1000000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def scatter_S400000_S1000000x1_S1000000_n_0_0_1 : ScatterDims S400000 S1000000x1 S1000000 where
  updateWindowDims := []
  insertedWindowDims := [0]
  scatterDimsToOperandDims := [0]
  indexVectorDim := 1
  wf := scatter_S400000_S1000000x1_S1000000_n_0_0_1_wf

abbrev win0_0 : Pipeline.Window sig grid0 :=
  Pipeline.Window.ofSpec (Memref.whole main_v1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v7) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x64 : Shape := ⟨2, ![8, 64]⟩
abbrev S8x50000x64 : Shape := ⟨3, ![8, 50000, 64]⟩
abbrev S64x64 : Shape := ⟨2, ![64, 64]⟩
abbrev S64 : Shape := ⟨1, ![64]⟩
abbrev S1x64 : Shape := ⟨2, ![1, 64]⟩
abbrev S401x64 : Shape := ⟨2, ![401, 64]⟩
abbrev S1000000 : Shape := ⟨1, ![1000000]⟩
abbrev S400000x64 : Shape := ⟨2, ![400000, 64]⟩
abbrev S_ : Shape := ⟨0, ![]⟩
abbrev S1000000x1 : Shape := ⟨2, ![1000000, 1]⟩
abbrev S1000000x64 : Shape := ⟨2, ![1000000, 64]⟩
abbrev S64x1 : Shape := ⟨2, ![64, 1]⟩
abbrev S400000 : Shape := ⟨1, ![400000]⟩
abbrev S400000x1 : Shape := ⟨2, ![400000, 1]⟩

abbrev nBuf : Space → Nat
  | .hbm => 107
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x50000x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S401x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S400000x64, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S1000000x64, .f32⟩
  | .hbm, ⟨45, _⟩ => ⟨S64x64, .f32⟩
  | .hbm, ⟨46, _⟩ => ⟨S1000000x64, .f32⟩
  | .hbm, ⟨47, _⟩ => ⟨S64x64, .f32⟩
  | .hbm, ⟨48, _⟩ => ⟨S1000000x64, .f32⟩
  | .hbm, ⟨49, _⟩ => ⟨S1000000x64, .f32⟩
  | .hbm, ⟨50, _⟩ => ⟨S64x64, .f32⟩
  | .hbm, ⟨51, _⟩ => ⟨S1000000x64, .f32⟩
  | .hbm, ⟨52, _⟩ => ⟨S1000000x64, .f32⟩
  | .hbm, ⟨53, _⟩ => ⟨S1x64, .f32⟩
  | .hbm, ⟨54, _⟩ => ⟨S1000000x64, .f32⟩
  | .hbm, ⟨55, _⟩ => ⟨S1000000x64, .f32⟩
  | .hbm, ⟨56, _⟩ => ⟨S_, .f32⟩
  | .hbm, ⟨57, _⟩ => ⟨S1000000x64, .f32⟩
  | .hbm, ⟨58, _⟩ => ⟨S1000000x64, .f32⟩
  | .hbm, ⟨59, _⟩ => ⟨S64x1, .f32⟩
  | .hbm, ⟨60, _⟩ => ⟨S1000000x1, .f32⟩
  | .hbm, ⟨61, _⟩ => ⟨S1000000x1, .f32⟩
  | .hbm, ⟨62, _⟩ => ⟨S1000000x1, .f32⟩
  | .hbm, ⟨63, _⟩ => ⟨S_, .f32⟩
  | .hbm, ⟨64, _⟩ => ⟨S1000000x1, .f32⟩
  | .hbm, ⟨65, _⟩ => ⟨S1000000x1, .f32⟩
  | .hbm, ⟨66, _⟩ => ⟨S_, .f32⟩
  | .hbm, ⟨67, _⟩ => ⟨S1000000x1, .f32⟩
  | .hbm, ⟨68, _⟩ => ⟨S1000000x1, .f32⟩
  | .hbm, ⟨69, _⟩ => ⟨S1000000x64, .f32⟩
  | .hbm, ⟨70, _⟩ => ⟨S1000000x64, .f32⟩
  | .hbm, ⟨71, _⟩ => ⟨S_, .f32⟩
  | .hbm, ⟨72, _⟩ => ⟨S400000x64, .f32⟩
  | .hbm, ⟨73, _⟩ => ⟨S1000000x1, .i32⟩
  | .hbm, ⟨74, _⟩ => ⟨S400000x64, .f32⟩
  | .hbm, ⟨75, _⟩ => ⟨S_, .i1⟩
  | .hbm, ⟨76, _⟩ => ⟨S400000, .i1⟩
  | .hbm, ⟨77, _⟩ => ⟨S_, .i32⟩
  | .hbm, ⟨78, _⟩ => ⟨S1000000, .i32⟩
  | .hbm, ⟨79, _⟩ => ⟨S1000000, .i1⟩
  | .hbm, ⟨80, _⟩ => ⟨S_, .i32⟩
  | .hbm, ⟨81, _⟩ => ⟨S1000000, .i32⟩
  | .hbm, ⟨82, _⟩ => ⟨S1000000, .i32⟩
  | .hbm, ⟨83, _⟩ => ⟨S1000000, .i32⟩
  | .hbm, ⟨84, _⟩ => ⟨S1000000x1, .i32⟩
  | .hbm, ⟨85, _⟩ => ⟨S_, .i1⟩
  | .hbm, ⟨86, _⟩ => ⟨S1000000, .i1⟩
  | .hbm, ⟨87, _⟩ => ⟨S400000, .i1⟩
  | .hbm, ⟨88, _⟩ => ⟨S64x64, .f32⟩
  | .hbm, ⟨89, _⟩ => ⟨S400000x64, .f32⟩
  | .hbm, ⟨90, _⟩ => ⟨S1x64, .f32⟩
  | .hbm, ⟨91, _⟩ => ⟨S400000x64, .f32⟩
  | .hbm, ⟨92, _⟩ => ⟨S400000x64, .f32⟩
  | .hbm, ⟨93, _⟩ => ⟨S64x64, .f32⟩
  | .hbm, ⟨94, _⟩ => ⟨S400000x64, .f32⟩
  | .hbm, ⟨95, _⟩ => ⟨S1x64, .f32⟩
  | .hbm, ⟨96, _⟩ => ⟨S400000x64, .f32⟩
  | .hbm, ⟨97, _⟩ => ⟨S400000x64, .f32⟩
  | .hbm, ⟨98, _⟩ => ⟨S_, .f32⟩
  | .hbm, ⟨99, _⟩ => ⟨S400000x64, .f32⟩
  | .hbm, ⟨100, _⟩ => ⟨S400000x64, .f32⟩
  | .hbm, ⟨101, _⟩ => ⟨S400000x1, .i1⟩
  | .hbm, ⟨102, _⟩ => ⟨S_, .f32⟩
  | .hbm, ⟨103, _⟩ => ⟨S400000x64, .i1⟩
  | .hbm, ⟨104, _⟩ => ⟨S400000x64, .f32⟩
  | .hbm, ⟨105, _⟩ => ⟨S400000x64, .f32⟩
  | .hbm, ⟨106, _⟩ => ⟨S8x50000x64, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call0_cst : Ref sig .tc := ⟨.hbm, 56, rfl⟩
abbrev main_call0_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_7 : Ref sig .tc := ⟨.hbm, 75, rfl⟩
abbrev main_v48 : Ref sig .tc := ⟨.hbm, 76, rfl⟩
abbrev main_c_8 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call1_cst : Ref sig .tc := ⟨.hbm, 98, rfl⟩
abbrev main_call1_v0 : Ref sig .tc := ⟨.hbm, 99, rfl⟩
abbrev main_v67 : Ref sig .tc := ⟨.hbm, 100, rfl⟩
abbrev main_v68 : Ref sig .tc := ⟨.hbm, 101, rfl⟩
abbrev main_cst_11 : Ref sig .tc := ⟨.hbm, 102, rfl⟩
abbrev main_call2_v0 : Ref sig .tc := ⟨.hbm, 103, rfl⟩
abbrev main_call2_v1 : Ref sig .tc := ⟨.hbm, 104, rfl⟩
abbrev main_v69 : Ref sig .tc := ⟨.hbm, 105, rfl⟩
abbrev main_v70 : Ref sig .tc := ⟨.hbm, 106, rfl⟩

abbrev nD : Nat := 1
abbrev τ : Topo := Topo.v7x

variable {F : FTy → Type} [FloatOps F]

class Facts₀ : Prop where
  shapeCasts_S8x50000x64_S400000x64 : S8x50000x64.ShapeCasts S400000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x64_S64x64_1_0 : S64x64.Transposes [1, 0] S64x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S1x64_S64x1_1_0 : S1x64.Transposes [1, 0] S64x1
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S400000x64 : S_.BroadcastsInDim S400000x64 (![] : Fin 0 → Fin S400000x64.rank)
  bcast_S_S400000 : S_.BroadcastsInDim S400000 (![] : Fin 0 → Fin S400000.rank)
  bcast_S1x64_S400000x64_0_1 : S1x64.BroadcastsInDim S400000x64 (![0, 1] : Fin 2 → Fin S400000x64.rank)
  bcast_S400000_S400000x1_0 : S400000.BroadcastsInDim S400000x1 (![0] : Fin 1 → Fin S400000x1.rank)
  bcast_S400000x1_S400000x64_0_1 : S400000x1.BroadcastsInDim S400000x64 (![0, 1] : Fin 2 → Fin S400000x64.rank)
  shapeCasts_S400000x64_S8x50000x64 : S400000x64.ShapeCasts S8x50000x64
  gather_S400000x64_S1000000x1_S1000000x64_1_0_n_n_0_1_164_wf : GatherDims.WF S400000x64 S1000000x1 S1000000x64 [1] [0] [] [0] [] 1 ![1, 64]
  gather_S401x64_S1000000x1_S1000000x64_1_0_n_n_0_1_164_wf : GatherDims.WF S401x64 S1000000x1 S1000000x64 [1] [0] [] [0] [] 1 ![1, 64]
  gather_S8x64_S1000000x1_S1000000x64_1_0_n_n_0_1_164_wf : GatherDims.WF S8x64 S1000000x1 S1000000x64 [1] [0] [] [0] [] 1 ![1, 64]
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []
  scatter_S400000x64_S1000000x1_S1000000x64_1_0_0_1_wf : ScatterDims.WF S400000x64 S1000000x1 S1000000x64 [1] [0] [0] 1
  scatter_S400000_S1000000x1_S1000000_n_0_0_1_wf : ScatterDims.WF S400000 S1000000x1 S1000000 [] [0] [0] 1
  dot_S400000x64_S64x64_S400000x64_1_0_0_1_n_n_wf : DotDims.WF S400000x64 S64x64 S400000x64 [1] [0] [0] [1] [] []

variable [Facts₀]

def gather_S400000x64_S1000000x1_S1000000x64_1_0_n_n_0_1_164 : GatherDims S400000x64 S1000000x1 S1000000x64 where
  offsetDims := [1]
  collapsedSliceDims := [0]
  operandBatchingDims := []
  startIndicesBatchingDims := []
  startIndexMap := [0]
  indexVectorDim := 1
  sliceSizes := ![1, 64]
  wf := gather_S400000x64_S1000000x1_S1000000x64_1_0_n_n_0_1_164_wf
def gather_S401x64_S1000000x1_S1000000x64_1_0_n_n_0_1_164 : GatherDims S401x64 S1000000x1 S1000000x64 where
  offsetDims := [1]
  collapsedSliceDims := [0]
  operandBatchingDims := []
  startIndicesBatchingDims := []
  startIndexMap := [0]
  indexVectorDim := 1
  sliceSizes := ![1, 64]
  wf := gather_S401x64_S1000000x1_S1000000x64_1_0_n_n_0_1_164_wf
def gather_S8x64_S1000000x1_S1000000x64_1_0_n_n_0_1_164 : GatherDims S8x64 S1000000x1 S1000000x64 where
  offsetDims := [1]
  collapsedSliceDims := [0]
  operandBatchingDims := []
  startIndicesBatchingDims := []
  startIndexMap := [0]
  indexVectorDim := 1
  sliceSizes := ![1, 64]
  wf := gather_S8x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def scatter_S400000_S1000000x1_S1000000_n_0_0_1 : ScatterDims S400000 S1000000x1 S1000000 where
  updateWindowDims := []
  insertedWindowDims := [0]
  scatterDimsToOperandDims := [0]
  indexVectorDim := 1
  wf := scatter_S400000_S1000000x1_S1000000_n_0_0_1_wf
def dot_S400000x64_S64x64_S400000x64_1_0_0_1_n_n : DotDims S400000x64 S64x64 S400000x64 where
  lhsContracting := [1]
  rhsContracting := [0]
  lhsNonContracting := [0]
  rhsNonContracting := [1]
  lhsBatch := []
  rhsBatch := []
  wf := dot_S400000x64_S64x64_S400000x64_1_0_0_1_n_n_wf

class Facts : Prop extends Facts₀ where

variable [Facts]
-- ==== Proof.TakeTerm.lean ====
/-
  A row lookup `table[idx]` as the kernel's program computes it: the index is first wrapped (a negative index counts
  from the end), the row is fetched with the index clamped into the table, and a row whose wrapped index lies outside
  the table is replaced by a fill word.  `wrapIdx` is the wrapped index as a column of start indices; `takeSub`,
  `takeRel`, `takeBat` are the three lookups of the program (into the 400000 node rows, the 401 relation rows and the
  8 query rows), each as ONE pure term of the table and the index vector.
-/
import proofs.«427528_j67345087201450_2_alg».proof.Proof.Gen.KernelIdeal

noncomputable section

namespace Cert.MsgPass

open Cert.KernelIdeal Cert.KernelIdeal.Gen Idealize.ShloMosaic

variable {F : FTy → Type} [FloatOps F]

/-- The wrapped index, as an `n × 1` column of start indices: `idx + N` where `idx < 0`, else `idx`. -/
def wrapIdx (N : BitVec 32) (a : IVec S1000000 32) : IVec S1000000x1 32 :=
  broadcastInDim S1000000x1 ![0] bcast_S1000000_S1000000x1_0
    (select (cmpi .slt a (broadcastInDim S1000000 ![] bcast_S_S1000000 (constantI S_ 32 0#32)))
      (addi a (broadcastInDim S1000000 ![] bcast_S_S1000000 (constantI S_ 32 N))) a)

/-- Which rows have their wrapped index inside `[0, hi]`: one bit per row. -/
def inRangeMask (hi : BitVec 32) (I : IVec S1000000x1 32) : IVec S1000000 1 :=
  Host.reduce IntOp.andi
    (andi (cmpi .sge I (broadcastInDim S1000000x1 ![] bcast_S_S1000000x1 (constantI S_ 32 0#32)))
      (cmpi .sle I (broadcastInDim S1000000x1 ![0, 1] bcast_S1x1_S1000000x1_0_1
        (broadcastInDim S1x1 ![1] bcast_S1_S1x1_1 (constantI S1 32 hi)))))
    (constantI S_ 1 1#1) reducesTo_S1000000x1_S1000000_d1 h_S_

/-- The fill: every entry the word `0x7FC00000`. -/
def fillRows : FVec F S1000000x64 .f32 :=
  broadcastInDim S1000000x64 ![] bcast_S_S1000000x64 (constant S_ .f32 0x7FC00000#32)

/-- Rows of the 400000-row table. -/
def takeSub (x : FVec F S400000x64 .f32) (a : IVec S1000000 32) : FVec F S1000000x64 .f32 :=
  select (broadcastInDim S1000000x64 ![0] bcast_S1000000_S1000000x64_0 (inRangeMask 399999#32 (wrapIdx 400000#32 a)))
    (Host.gather gather_S400000x64_S1000000x1_S1000000x64_1_0_n_n_0_1_164 x (wrapIdx 400000#32 a)) fillRows

/-- Rows of the 401-row table. -/
def takeRel (x : FVec F S401x64 .f32) (a : IVec S1000000 32) : FVec F S1000000x64 .f32 :=
  select (broadcastInDim S1000000x64 ![0] bcast_S1000000_S1000000x64_0 (inRangeMask 400#32 (wrapIdx 401#32 a)))
    (Host.gather gather_S401x64_S1000000x1_S1000000x64_1_0_n_n_0_1_164 x (wrapIdx 401#32 a)) fillRows

/-- Rows of the 8-row table. -/
def takeBat (x : FVec F S8x64 .f32) (a : IVec S1000000 32) : FVec F S1000000x64 .f32 :=
  select (broadcastInDim S1000000x64 ![0] bcast_S1000000_S1000000x64_0 (inRangeMask 7#32 (wrapIdx 8#32 a)))
    (Host.gather gather_S8x64_S1000000x1_S1000000x64_1_0_n_n_0_1_164 x (wrapIdx 8#32 a)) fillRows

end Cert.MsgPass

end
-- ==== Proof.HostValue.lean ====
/-
  What each host stretch of the kernel's program leaves, and the result buffer read back through all of them.

  Between the launch and the return the program runs six stretches of host operations and two launches.  Each stretch
  is read at an ARBITRARY state `V` of the buffers it starts from: the reshape of the node table; the three row
  lookups (`takeSub`, `takeRel`, `takeBat` of the buffers they read); after the first launch the summed messages (an
  accumulating scatter of the message rows into zeros, at the raw destination indices) and the marks (a replacing
  scatter of ones into zeros at the wrapped destination indices, reshaped to a column); after the second launch the
  final reshape.  A buffer that a stretch does not write keeps its contents, which is how an argument array, or a value
  computed earlier, is carried to the stretch or the launch that reads it.
-/
import proofs.«427528_j67345087201450_2_alg».proof.Proof.Gen.KernelIdeal.Frame
import proofs.«427528_j67345087201450_2_alg».proof.Proof.TakeTerm
import Idealize.ShloMosaic.Lib.StableHlo.Run

noncomputable section

set_option maxRecDepth 16384

namespace Cert.MsgPass

open Cert.KernelIdeal Cert.KernelIdeal.Gen Idealize.ShloMosaic Idealize.ShloMosaic.TcCoe Idealize.SL.Sem
open Idealize.ShloMosaic.StableHlo

variable {F : FTy → Type} [FloatOps F]

/-- Contents moved to a typed reference's buffer type and back are the contents: the two moves are transports along one
    equation of types and its inverse. -/
theorem ofBuf_toBuf {T : BufTy} (x : TRef sig T) (v : T.Contents (Elt F)) : x.ofBuf (x.toBuf v) = v := by
  obtain ⟨r, h, d, u⟩ := x
  subst h
  rfl

/-- The wrapped destination indices as a column of start indices (into the 400000 node rows). -/
abbrev destIdx (a : IVec S1000000 32) : IVec S1000000x1 32 := wrapIdx 400000#32 a

/-- The summed messages: the message rows added into zeros at the RAW destination indices. -/
def sumMessages (a15 : IVec S1000000 32) (msg : FVec F S1000000x64 .f32) : FVec F S400000x64 .f32 :=
  Host.scatterAdd scatter_S400000x64_S1000000x1_S1000000x64_1_0_0_1
    (broadcastInDim S400000x64 ![] bcast_S_S400000x64 (constant S_ .f32 0x00000000#32))
    (broadcastInDim S1000000x1 ![0] bcast_S1000000_S1000000x1_0 a15) msg

/-- The marks before the reshape: ones written over zeros at the wrapped destination indices. -/
def markVec (a15 : IVec S1000000 32) : FVec F S400000 .f32 :=
  Host.scatter scatter_S400000_S1000000x1_S1000000_n_0_0_1 (fun _ b => b)
    (broadcastInDim S400000 ![] bcast_S_S400000 (constant S_ .f32 0x00000000#32))
    (destIdx a15)
    (broadcastInDim S1000000 ![] bcast_S_S1000000 (constant S_ .f32 0x3F800000#32))

/-- The marks as the column the second launch reads. -/
def markCol (a15 : IVec S1000000 32) : FVec F S400000x1 .f32 :=
  shapeCast _ (markVec (F := F) a15) shapeCasts_S400000_S400000x1

section Stretches

variable (V : Valuation τ sig (Elt F))

/-- The node table as 400000 rows. -/
theorem after_reshape_nodes : StableHlo.after hostOps0 V (Proc.devRef .tc main_v0)
    = shapeCast _ (V (Proc.devRef .tc main_arg1)) shapeCasts_S8x50000x64_S400000x64 := by
  after_results
  rfl

/-- The head rows. -/
theorem after_take_sub : StableHlo.after hostOps0_1 V (Proc.devRef .tc main_v1)
    = takeSub (V (Proc.devRef .tc main_v0)) (V (Proc.devRef .tc main_arg13)) := by
  after_results_simp
  simp only [ofBuf_toBuf]
  have e0 : (TRef.of main_v0 : TRef sig ⟨S400000x64, .f32⟩).ofBuf (V (Proc.devRef .tc main_v0)) = V (Proc.devRef .tc main_v0) := rfl
  have e13 : (TRef.of main_arg13 : TRef sig ⟨S1000000, .i32⟩).ofBuf (V (Proc.devRef .tc main_arg13)) = V (Proc.devRef .tc main_arg13) := rfl
  have eOut : ∀ v : (⟨S1000000x64, .f32⟩ : BufTy).Contents (Elt F), (TRef.of main_v1 : TRef sig ⟨S1000000x64, .f32⟩).toBuf v = v := fun _ => rfl
  rw [e0, e13, eOut]
  rfl

/-- The relation rows. -/
theorem after_take_rel : StableHlo.after hostOps0_2 V (Proc.devRef .tc main_v2)
    = takeRel (V (Proc.devRef .tc main_arg7)) (V (Proc.devRef .tc main_arg14)) := by
  after_results_simp
  simp only [ofBuf_toBuf]
  have e7 : (TRef.of main_arg7 : TRef sig ⟨S401x64, .f32⟩).ofBuf (V (Proc.devRef .tc main_arg7)) = V (Proc.devRef .tc main_arg7) := rfl
  have e14 : (TRef.of main_arg14 : TRef sig ⟨S1000000, .i32⟩).ofBuf (V (Proc.devRef .tc main_arg14)) = V (Proc.devRef .tc main_arg14) := rfl
  have eOut : ∀ v : (⟨S1000000x64, .f32⟩ : BufTy).Contents (Elt F), (TRef.of main_v2 : TRef sig ⟨S1000000x64, .f32⟩).toBuf v = v := fun _ => rfl
  rw [e7, e14, eOut]
  rfl

/-- The query rows. -/
theorem after_take_bat : StableHlo.after hostOps0_3 V (Proc.devRef .tc main_v3)
    = takeBat (V (Proc.devRef .tc main_arg0)) (V (Proc.devRef .tc main_arg12)) := by
  after_results_simp
  simp only [ofBuf_toBuf]
  have e0 : (TRef.of main_arg0 : TRef sig ⟨S8x64, .f32⟩).ofBuf (V (Proc.devRef .tc main_arg0)) = V (Proc.devRef .tc main_arg0) := rfl
  have e12 : (TRef.of main_arg12 : TRef sig ⟨S1000000, .i32⟩).ofBuf (V (Proc.devRef .tc main_arg12)) = V (Proc.devRef .tc main_arg12) := rfl
  have eOut : ∀ v : (⟨S1000000x64, .f32⟩ : BufTy).Contents (Elt F), (TRef.of main_v3 : TRef sig ⟨S1000000x64, .f32⟩).toBuf v = v := fun _ => rfl
  rw [e0, e12, eOut]
  rfl

/-- The summed messages. -/
theorem after_sum_messages : StableHlo.after hostOps1 V (Proc.devRef .tc main_v7)
    = sumMessages (V (Proc.devRef .tc main_arg15)) (V (Proc.devRef .tc main_v4)) := by
  after_results_simp
  rfl

/-- The column of marks. -/
theorem after_marks : StableHlo.after hostOps1 V (Proc.devRef .tc main_v17) = markCol (V (Proc.devRef .tc main_arg15)) := by
  after_results_simp
  rfl

/-- The result: the second launch's output as `8 × 50000 × 64`. -/
theorem after_result : StableHlo.after hostOps2 V (Proc.devRef .tc main_v19)
    = shapeCast _ (V (Proc.devRef .tc main_v18)) shapeCasts_S400000x64_S8x50000x64 := by
  after_results
  rfl

end Stretches

end Cert.MsgPass

end
-- ==== Proof.RowSpec.lean ====
/-
  Message passing on a graph, one row at a time.

  An edge carries three rows of 64 numbers: the head node's row `h`, the relation's row `r` and the query's row `q`.
  Its message is the entrywise product `h d * r d` scaled by ONE gate for the whole row,
      gate = logistic (∑ k, relu (∑ j, h j * Ws k j + ∑ j, r j * Wr k j + ∑ j, q j * Wq k j + b k) * wa k),
  where `relu x = max x 0`.  A node's new row is a two-layer perceptron of the row `a` of summed messages,
      relu (∑ k, (∑ j, a j * W1 k j + b1 k) * W2 d k + b2 d).
  Everything is over the extended reals; the sums are finite sums in the order `Finset.sum` gives them, which is
  immaterial: addition of extended reals is commutative and associative.
-/
import Idealize.ShloMosaic.PureOps.Ideal
import Idealize.ShloMosaic.Lib.ValueIdx

noncomputable section

namespace Cert.MsgPass

open Idealize.ShloMosaic Idealize.ShloMosaic.ValueIdx

/-- One affine map of a row: entry `k` of `x · Wᵀ`. -/
def rowDot (x : Fin 64 → EReal) (W : Fin 64 → Fin 64 → EReal) (k : Fin 64) : EReal := ∑ j, x j * W k j

/-- The hidden layer of the gate, before the logistic: entry `k`. -/
def gateHidden (h r q : Fin 64 → EReal) (Ws Wr Wq : Fin 64 → Fin 64 → EReal) (b : Fin 64 → EReal) (k : Fin 64) : EReal :=
  max (((rowDot h Ws k + rowDot r Wr k) + rowDot q Wq k) + b k) 0

/-- The gate of an edge: one number for the whole row. -/
def gate (h r q : Fin 64 → EReal) (Ws Wr Wq : Fin 64 → Fin 64 → EReal) (b wa : Fin 64 → EReal) : EReal :=
  Ideal.logistic (∑ k, gateHidden h r q Ws Wr Wq b k * wa k)

/-- Entry `d` of an edge's message. -/
def edgeRow (h r q : Fin 64 → EReal) (Ws Wr Wq : Fin 64 → Fin 64 → EReal) (b wa : Fin 64 → EReal) (d : Fin 64) : EReal :=
  (h d * r d) * gate h r q Ws Wr Wq b wa

/-- Entry `d` of a node's new row, from the row `a` of summed messages. -/
def nodeRow (a : Fin 64 → EReal) (W1 : Fin 64 → Fin 64 → EReal) (b1 : Fin 64 → EReal) (W2 : Fin 64 → Fin 64 → EReal)
    (b2 : Fin 64 → EReal) (d : Fin 64) : EReal :=
  max ((∑ k, (rowDot a W1 k + b1 k) * W2 d k) + b2 d) 0

/-- Row `p` of an `n × 64` array. -/
abbrev rowOf {n : Nat} (x : (⟨2, ![n, 64]⟩ : Shape).Idx → EReal) (p : Fin n) : Fin 64 → EReal := fun j => x (ix2 p j)
/-- A `64 × 64` array as a function of its two coordinates. -/
abbrev matOf (w : (⟨2, ![64, 64]⟩ : Shape).Idx → EReal) : Fin 64 → Fin 64 → EReal := fun k j => w (ix2 k j)
/-- A vector of 64 entries. -/
abbrev vecOf (b : (⟨1, ![64]⟩ : Shape).Idx → EReal) : Fin 64 → EReal := fun k => b (ix1 k)
/-- The one row of a `1 × 64` array. -/
abbrev row1Of (w : (⟨2, ![1, 64]⟩ : Shape).Idx → EReal) : Fin 64 → EReal := fun k => w (ix2 0 k)

/-- All the messages: row `e` is the message of edge `e`, from rows `e` of the three gathered arrays. -/
def edgeWhole {n : Nat} (h r q : (⟨2, ![n, 64]⟩ : Shape).Idx → EReal) (Ws Wr Wq : (⟨2, ![64, 64]⟩ : Shape).Idx → EReal)
    (b : (⟨1, ![64]⟩ : Shape).Idx → EReal) (wa : (⟨2, ![1, 64]⟩ : Shape).Idx → EReal) : (⟨2, ![n, 64]⟩ : Shape).Idx → EReal :=
  fun i => edgeRow (rowOf h (i 0)) (rowOf r (i 0)) (rowOf q (i 0)) (matOf Ws) (matOf Wr) (matOf Wq) (vecOf b) (row1Of wa) (i 1)

/-- All the new rows, each multiplied by its node's mark `t` (a column): row `p` from row `p` of the summed messages. -/
def nodeWhole {n : Nat} (a : (⟨2, ![n, 64]⟩ : Shape).Idx → EReal) (t : (⟨2, ![n, 1]⟩ : Shape).Idx → EReal)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal) : (⟨2, ![n, 64]⟩ : Shape).Idx → EReal :=
  fun i => nodeRow (rowOf a (i 0)) (matOf W1) (vecOf b1) (matOf W2) (vecOf b2) (i 1) * t (ix2 (i 0) 0)

theorem edgeWhole_apply {n : Nat} (h r q : (⟨2, ![n, 64]⟩ : Shape).Idx → EReal) (Ws Wr Wq : (⟨2, ![64, 64]⟩ : Shape).Idx → EReal)
    (b : (⟨1, ![64]⟩ : Shape).Idx → EReal) (wa : (⟨2, ![1, 64]⟩ : Shape).Idx → EReal) (p : Fin n) (d : Fin 64) :
    edgeWhole h r q Ws Wr Wq b wa (ix2 p d)
      = edgeRow (rowOf h p) (rowOf r p) (rowOf q p) (matOf Ws) (matOf Wr) (matOf Wq) (vecOf b) (row1Of wa) d := rfl

theorem nodeWhole_apply {n : Nat} (a : (⟨2, ![n, 64]⟩ : Shape).Idx → EReal) (t : (⟨2, ![n, 1]⟩ : Shape).Idx → EReal)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal) (p : Fin n) (d : Fin 64) :
    nodeWhole a t W1 b1 W2 b2 (ix2 p d)
      = nodeRow (rowOf a p) (matOf W1) (vecOf b1) (matOf W2) (vecOf b2) d * t (ix2 p 0) := rfl

/-- An index vector (a million signed 32-bit words) with every entry in `[0, N)`. -/
def InRange (N : Int) (a : (⟨1, ![1000000]⟩ : Shape).Idx → BitVec 32) : Prop :=
  ∀ e : Fin 1000000, 0 ≤ (a (ix1 e)).toInt ∧ (a (ix1 e)).toInt < N

end Cert.MsgPass

end
-- ==== Proof.EdgeBody.lean ====
/-
  The edge kernel's body at one entry of a block of 5000 edges.  The body forms, for every row `p` of the block, the
  three products `h·Wsᵀ`, `r·Wrᵀ`, `q·Wqᵀ` (each a sum over 64 terms), adds the bias, takes `max · 0`, contracts the
  result with the attention row to ONE number per edge, applies the logistic to it, and scales the entrywise product
  `h * r` of the row by that number: entry `(p, q)` is `edgeRow` of rows `p` of the three blocks.
-/
import proofs.«427528_j67345087201450_2_alg».proof.Proof.Gen.KernelIdeal.Skeleton
import proofs.«427528_j67345087201450_2_alg».proof.Proof.RowSpec
import Idealize.ShloMosaic.PureOps.Ideal.Laws
import Idealize.ShloMosaic.Lib.Pipeline.Value
import Idealize.ShloMosaic.Lib.ValueLayout

noncomputable section

namespace Cert.MsgPass

open Cert.KernelIdeal Cert.KernelIdeal.Gen Idealize.ShloMosaic Idealize.ShloMosaic.ValueIdx

/-! ### The two products read at an entry -/

private theorem lhsW_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem lhsW_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
private theorem rhsW_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
private theorem rhsW_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of rows times a 64 × 64 matrix, into zero: entry `(p, k)` is the sum over `j` of `x (p, j) * w (j, k)`. -/
private theorem matmulW_apply (x : FVec Ideal S5000x64 .bf16) (w : FVec Ideal S64x64 .bf16) (p : Fin 5000) (k : Fin 64) :
    matmul dot_S5000x64_S64x64_S5000x64_1_0_0_1_n_n none x w (constant S5000x64 .f32 0x00000000#32) (ix2 p k)
      = ∑ j : Fin 64, x (ix2 p j) * w (ix2 j k) := by
  refine (Ideal.matmul_constant_zero_apply dot_S5000x64_S64x64_S5000x64_1_0_0_1_n_n none x w (ix2 p k)).trans ?_
  rw [← Equiv.sum_comp (ValueIdx.contrEquiv1 dot_S5000x64_S64x64_S5000x64_1_0_0_1_n_n 64 rfl rfl).symm]
  refine Finset.sum_congr rfl fun j _ => ?_
  have hj := ValueIdx.contrEquiv1_symm_val dot_S5000x64_S64x64_S5000x64_1_0_0_1_n_n 64 rfl rfl j
  have el : dot_S5000x64_S64x64_S5000x64_1_0_0_1_n_n.lhsIdx (ix2 p k) ((ValueIdx.contrEquiv1 dot_S5000x64_S64x64_S5000x64_1_0_0_1_n_n 64 rfl rfl).symm j) = ix2 p j := funext fun a => Fin.ext (by
    match a with
    | ⟨0, _⟩ => exact lhsW_0 _ _
    | ⟨1, _⟩ => exact (lhsW_1 _ _).trans hj)
  have er : dot_S5000x64_S64x64_S5000x64_1_0_0_1_n_n.rhsIdx (ix2 p k) ((ValueIdx.contrEquiv1 dot_S5000x64_S64x64_S5000x64_1_0_0_1_n_n 64 rfl rfl).symm j) = ix2 j k := funext fun a => Fin.ext (by
    match a with
    | ⟨0, _⟩ => exact (rhsW_0 _ _).trans hj
    | ⟨1, _⟩ => exact rhsW_1 _ _)
  rw [el, er]

private theorem lhsA_0 (i : S5000x1.Idx) (c : dot_S5000x64_S64x1_S5000x1_1_0_0_1_n_n.contr.Idx) :
    (dot_S5000x64_S64x1_S5000x1_1_0_0_1_n_n.lhsIdx i c 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
private theorem lhsA_1 (i : S5000x1.Idx) (c : dot_S5000x64_S64x1_S5000x1_1_0_0_1_n_n.contr.Idx) :
    (dot_S5000x64_S64x1_S5000x1_1_0_0_1_n_n.lhsIdx i c 1).val = (c ⟨0, by decide⟩).val :=
  dot_S5000x64_S64x1_S5000x1_1_0_0_1_n_n.lhsIdx_val_of_single rfl i c
private theorem rhsA_0 (i : S5000x1.Idx) (c : dot_S5000x64_S64x1_S5000x1_1_0_0_1_n_n.contr.Idx) :
    (dot_S5000x64_S64x1_S5000x1_1_0_0_1_n_n.rhsIdx i c 0).val = (c ⟨0, by decide⟩).val :=
  dot_S5000x64_S64x1_S5000x1_1_0_0_1_n_n.rhsIdx_val_of_single rfl i c
private theorem rhsA_1 (i : S5000x1.Idx) (c : dot_S5000x64_S64x1_S5000x1_1_0_0_1_n_n.contr.Idx) :
    (dot_S5000x64_S64x1_S5000x1_1_0_0_1_n_n.rhsIdx i c 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- A block of rows times a column of 64 entries, into zero: entry `(p, u)` is the sum over `j` of `x (p, j) * w (j, u)`. -/
private theorem matmulA_apply (x : FVec Ideal S5000x64 .bf16) (w : FVec Ideal S64x1 .bf16) (p : Fin 5000) (u : Fin 1) :
    matmul dot_S5000x64_S64x1_S5000x1_1_0_0_1_n_n none x w (constant S5000x1 .f32 0x00000000#32) (ix2 p u)
      = ∑ j : Fin 64, x (ix2 p j) * w (ix2 j u) := by
  refine (Ideal.matmul_constant_zero_apply dot_S5000x64_S64x1_S5000x1_1_0_0_1_n_n none x w (ix2 p u)).trans ?_
  rw [← Equiv.sum_comp (ValueIdx.contrEquiv1 dot_S5000x64_S64x1_S5000x1_1_0_0_1_n_n 64 rfl rfl).symm]
  refine Finset.sum_congr rfl fun j _ => ?_
  have hj := ValueIdx.contrEquiv1_symm_val dot_S5000x64_S64x1_S5000x1_1_0_0_1_n_n 64 rfl rfl j
  have el : dot_S5000x64_S64x1_S5000x1_1_0_0_1_n_n.lhsIdx (ix2 p u) ((ValueIdx.contrEquiv1 dot_S5000x64_S64x1_S5000x1_1_0_0_1_n_n 64 rfl rfl).symm j) = ix2 p j := funext fun a => Fin.ext (by
    match a with
    | ⟨0, _⟩ => exact lhsA_0 _ _
    | ⟨1, _⟩ => exact (lhsA_1 _ _).trans hj)
  have er : dot_S5000x64_S64x1_S5000x1_1_0_0_1_n_n.rhsIdx (ix2 p u) ((ValueIdx.contrEquiv1 dot_S5000x64_S64x1_S5000x1_1_0_0_1_n_n 64 rfl rfl).symm j) = ix2 j u := funext fun a => Fin.ext (by
    match a with
    | ⟨0, _⟩ => exact (rhsA_0 _ _).trans hj
    | ⟨1, _⟩ => exact rhsA_1 _ _)
  rw [el, er]

/-- A column broadcast along the rows: entry `(p, c)` of a `[5000, 1]` array spread to `[5000, 64]` is the column's entry `p`. -/
private theorem broadcastCol_apply (v : FVec Ideal S5000x1 .f32) (p : Fin 5000) (c : Fin 64) :
    broadcastTo S5000x64 v broadcasts_S5000x1_S5000x64 (ix2 p c) = v (ix2 p (0 : Fin 1)) := by
  refine broadcastTo_apply v broadcasts_S5000x1_S5000x64 (ix2 p c) (ix2 p (0 : Fin 1)) fun ax => ?_
  match ax with
  | ⟨0, _⟩ =>
    show p.val = if (5000 : Nat) = 1 then 0 else p.val
    rw [if_neg (by decide)]
  | ⟨1, _⟩ => rfl

/-! ### The remaining operations read at an entry -/

/-- The logistic of an array is taken entry by entry. -/
private theorem logistic_at (v : FVec Ideal S5000x1 .f32) (i : S5000x1.Idx) : logistic v i = Ideal.logistic (v i) := rfl

/-- A 64 × 64 matrix transposed: entry `(j, k)` is the matrix's entry `(k, j)`. -/
private theorem transposeW_apply (w : FVec Ideal S64x64 .bf16) (j k : Fin 64) :
    transpose S64x64 ([1, 0] : List (Fin 2)) w transposes_S64x64_p1_0_S64x64 (ix2 j k) = w (ix2 k j) :=
  transpose_ix2_apply w transposes_S64x64_p1_0_S64x64 j k

/-- A row of 64 entries turned into a column: entry `(j, u)` is the row's entry `j`. -/
private theorem transposeA_apply (w : FVec Ideal S1x64 .bf16) (j : Fin 64) (u : Fin 1) :
    transpose S64x1 ([1, 0] : List (Fin 2)) w transposes_S1x64_p1_0_S64x1 (ix2 j u) = w (ix2 u j) :=
  transpose_ix2_apply w transposes_S1x64_p1_0_S64x1 j u

/-- The bias as one row, spread over the rows of the block: entry `(p, k)` is the bias's entry `k`. -/
private theorem biasRows_apply (b : FVec Ideal S64 .f32) (p : Fin 5000) (k : Fin 64) :
    broadcastTo S5000x64 (shapeCast S1x64 b shapeCasts_S64_S1x64) broadcasts_S1x64_S5000x64 (ix2 p k) = b (ix1 k) :=
  (broadcastTo_1b_ab_apply _ broadcasts_S1x64_S5000x64 p k).trans (shapeCast_a_1a_apply b shapeCasts_S64_S1x64 0 k)

/-! ### The body's payload at an entry -/

/-- Entry `(p, q)` of the body's result: the product `h (p, q) * r (p, q)` times the gate of row `p`.  Every operation
    is read at the entry, outermost first: the two entrywise products, the column spread along the row, the logistic,
    the contraction with the attention column (a sum over 64 terms), `max · 0`, the bias row, and the three products
    with the transposed weights (each a sum over 64 terms, the transposes exchanging the weights' two coordinates);
    the narrowing to the short float format and the cast of a block to its own shape change no value. What is left is
    the specification's expression with its names opened. -/
theorem edge_payload (v0 v2 v4 : Vec Ideal S5000x64 .f32) (v9 v11 v13 : Vec Ideal S64x64 .f32) (v23 : Vec Ideal S64 .f32)
    (v30 : Vec Ideal S1x64 .f32) (p : Fin 5000) (q : Fin 64) :
    k0_pay1 (F := Ideal) v0 v2 v4 v9 v11 v13 v23 v30 (ix2 p q)
      = edgeRow (rowOf v0 p) (rowOf v2 p) (rowOf v4 p) (matOf v9) (matOf v11) (matOf v13) (vecOf v23) (row1Of v30) q := by
  unfold k0_pay1
  simp only [edgeRow, gate, gateHidden, rowDot, mulf_apply, addf_apply, maximumf_apply, truncf_apply, broadcast_apply,
    shapeCast_self, broadcastCol_apply, logistic_at, matmulA_apply, matmulW_apply, transposeW_apply, transposeA_apply,
    biasRows_apply, Ideal.ofBits_def, Ideal.ofBits_zero_f32]

end Cert.MsgPass

end
-- ==== Proof.EdgeArray.lean ====
/-
  From blocks to the array, first launch.  Grid point `t` of 200 writes back rows `5000·t … 5000·t + 4999` of the
  message array, computed from the same rows of the three gathered arrays and the whole weight arrays; the 200 blocks
  tile the million rows, so the array the launch leaves is `edgeWhole` of the arrays it was entered with.
-/
import proofs.«427528_j67345087201450_2_alg».proof.Proof.Gen.KernelIdeal.Frame
import proofs.«427528_j67345087201450_2_alg».proof.Proof.EdgeBody

noncomputable section

set_option maxRecDepth 16384

namespace Cert.MsgPass

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole rank-2 block, as the constant function. -/
private theorem edge_zero2 : (![0, 0] : Fin 2 → Nat) = fun _ => 0 := funext fun a => by fin_cases a <;> rfl

/-- The zero offset of a whole rank-1 block, as the constant function. -/
private theorem edge_zero1 : (![0] : Fin 1 → Nat) = fun _ => 0 := funext fun a => by fin_cases a <;> rfl

/-- The index maps over the 200 grid points: the three gathered arrays and the message array move in blocks of rows,
    block `t` at point `t`, over all 64 columns; the weights, the bias and the attention row are fetched whole. -/
private theorem edge_block_index : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row `y 0` of the head block at point `t` is row `5000·t + y 0` of the gathered head array. -/
private theorem edge_head_rows (c : Dev nD) (t : Fin cfg0.N) (y : S5000x64.Idx) (k : S1000000x64.Idx)
    (hk0 : (k 0).val = 5000 * t.val + (y 0).val) (hk1 : (k 1).val = (y 1).val) :
    (iblk0 V c 0 t : Vec Ideal S5000x64 .f32) y = (V c main_v1 : S1000000x64.Idx → EReal) k := by
  obtain ⟨e0, e1, -⟩ := edge_block_index t
  unfold iblk0
  rw [View.read_apply]
  show V c main_v1 _ = V c main_v1 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 64 + 1 * (y 1).val = (k 1).val; rw [e1, hk1]; omega

/-- The same for the relation block. -/
private theorem edge_rel_rows (c : Dev nD) (t : Fin cfg0.N) (y : S5000x64.Idx) (k : S1000000x64.Idx)
    (hk0 : (k 0).val = 5000 * t.val + (y 0).val) (hk1 : (k 1).val = (y 1).val) :
    (iblk0 V c 1 t : Vec Ideal S5000x64 .f32) y = (V c main_v2 : S1000000x64.Idx → EReal) k := by
  obtain ⟨-, -, e0, e1, -⟩ := edge_block_index t
  unfold iblk0
  rw [View.read_apply]
  show V c main_v2 _ = V c main_v2 _
  congr 1
  funext a
  apply Fin.ext
  match a with
  | ⟨0, _⟩ => show win0_1.index t (0 : Fin 2) * 5000 + 1 * (y 0).val = (k 0).val; rw [e0, hk0]; omega
  | ⟨1, _⟩ => show win0_1.index t (1 : Fin 2) * 64 + 1 * (y 1).val = (k 1).val; rw [e1, hk1]; omega

/-- The same for the query block. -/
private theorem edge_query_rows (c : Dev nD) (t : Fin cfg0.N) (y : S5000x64.Idx) (k : S1000000x64.Idx)
    (hk0 : (k 0).val = 5000 * t.val + (y 0).val) (hk1 : (k 1).val = (y 1).val) :
    (iblk0 V c 2 t : Vec Ideal S5000x64 .f32) y = (V c main_v3 : S1000000x64.Idx → EReal) k := by
  obtain ⟨-, -, -, -, e0, e1, -⟩ := edge_block_index t
  unfold iblk0
  rw [View.read_apply]
  show V c main_v3 _ = V c main_v3 _
  congr 1
  funext a
  apply Fin.ext
  match a with
  | ⟨0, _⟩ => show win0_2.index t (0 : Fin 2) * 5000 + 1 * (y 0).val = (k 0).val; rw [e0, hk0]; omega
  | ⟨1, _⟩ => show win0_2.index t (1 : Fin 2) * 64 + 1 * (y 1).val = (k 1).val; rw [e1, hk1]; omega

/-- The block of the head weights is the whole array, at every point. -/
private theorem edge_Ws_whole (c : Dev nD) (t : Fin cfg0.N) :
    (iblk0 V c 3 t : Vec Ideal S64x64 .f32) = (V c main_arg2 : S64x64.Idx → EReal) := by
  obtain ⟨-, -, -, -, -, -, e0, e1, -⟩ := edge_block_index t
  funext y
  unfold iblk0
  rw [View.read_apply]
  show V c main_arg2 _ = V c main_arg2 _
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The block of the relation weights is the whole array. -/
private theorem edge_Wr_whole (c : Dev nD) (t : Fin cfg0.N) :
    (iblk0 V c 4 t : Vec Ideal S64x64 .f32) = (V c main_arg3 : S64x64.Idx → EReal) := by
  obtain ⟨-, -, -, -, -, -, -, -, e0, e1, -⟩ := edge_block_index t
  funext y
  unfold iblk0
  rw [View.read_apply]
  show V c main_arg3 _ = V c main_arg3 _
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The block of the query weights is the whole array. -/
private theorem edge_Wq_whole (c : Dev nD) (t : Fin cfg0.N) :
    (iblk0 V c 5 t : Vec Ideal S64x64 .f32) = (V c main_arg4 : S64x64.Idx → EReal) := by
  obtain ⟨-, -, -, -, -, -, -, -, -, -, e0, e1, -⟩ := edge_block_index t
  funext y
  unfold iblk0
  rw [View.read_apply]
  show V c main_arg4 _ = V c main_arg4 _
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

/-- The block of the bias is the whole vector. -/
private theorem edge_bias_whole (c : Dev nD) (t : Fin cfg0.N) :
    (iblk0 V c 6 t : Vec Ideal S64 .f32) = (V c main_arg5 : S64.Idx → EReal) := by
  obtain ⟨-, -, -, -, -, -, -, -, -, -, -, -, e0, -⟩ := edge_block_index t
  funext y
  unfold iblk0
  rw [View.read_apply]
  show V c main_arg5 _ = V c main_arg5 _
  congr 1
  funext a
  apply Fin.ext
  match a with
  | ⟨0, _⟩ => show win0_6.index t (0 : Fin 1) * 64 + 1 * (y 0).val = (y 0).val; rw [e0]; omega

/-- The block of the attention row is the whole row. -/
private theorem edge_att_whole (c : Dev nD) (t : Fin cfg0.N) :
    (iblk0 V c 7 t : Vec Ideal S1x64 .f32) = (V c main_arg6 : S1x64.Idx → EReal) := by
  obtain ⟨-, -, -, -, -, -, -, -, -, -, -, -, -, e0, e1, -⟩ := edge_block_index t
  funext y
  unfold iblk0
  rw [View.read_apply]
  show V c main_arg6 _ = V c main_arg6 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 64 + 1 * (y 1).val = (y 1).val; rw [e1]; omega

/-- One entry of a block's payload, over blocks whose row `p` is row `P` of the three arrays: the entry of
    `edgeWhole` at row `P`. -/
private theorem edge_entry_of_rows
    (x0 x1 x2 : Vec Ideal S5000x64 .f32) (x3 x4 x5 : Vec Ideal S64x64 .f32) (x6 : Vec Ideal S64 .f32) (x7 : Vec Ideal S1x64 .f32)
    (A0 A1 A2 : S1000000x64.Idx → EReal) (B3 B4 B5 : S64x64.Idx → EReal) (B6 : S64.Idx → EReal) (B7 : S1x64.Idx → EReal)
    (p : Fin 5000) (P : Fin 1000000) (q : Fin 64)
    (h0 : ∀ j : Fin 64, x0 (ix2 p j) = A0 (ix2 P j)) (h1 : ∀ j : Fin 64, x1 (ix2 p j) = A1 (ix2 P j))
    (h2 : ∀ j : Fin 64, x2 (ix2 p j) = A2 (ix2 P j))
    (e3 : x3 = B3) (e4 : x4 = B4) (e5 : x5 = B5) (e6 : x6 = B6) (e7 : x7 = B7) :
    k0_pay1 (F := Ideal) x0 x1 x2 x3 x4 x5 x6 x7 (ix2 p q) = edgeWhole A0 A1 A2 B3 B4 B5 B6 B7 (ix2 P q) := by
  subst e3 e4 e5 e6 e7
  have r0 : rowOf x0 p = rowOf A0 P := funext h0
  have r1 : rowOf x1 p = rowOf A1 P := funext h1
  have r2 : rowOf x2 p = rowOf A2 P := funext h2
  rw [edge_payload, edgeWhole_apply, r0, r1, r2]

/-- The entry `(p, q)` of point `t`'s block of the message array is the array's entry `(5000·t + p, q)`. -/
private theorem edge_out_emb (t : Fin cfg0.N) (p : Fin 5000) (q : Fin 64) (h : 5000 * t.val + p.val < 1000000) :
    ((cfg0.win 8).blk t).view.emb (ix2 p q) = ix2 (⟨5000 * t.val + p.val, h⟩ : Fin 1000000) q := by
  obtain ⟨-, -, -, -, -, -, -, -, -, -, -, -, -, -, -, e0, e1⟩ := edge_block_index t
  funext a
  apply Fin.ext
  match a with
  | ⟨0, _⟩ => show win0_8.index t (0 : Fin 2) * 5000 + 1 * p.val = 5000 * t.val + p.val; rw [e0]; omega
  | ⟨1, _⟩ => show win0_8.index t (1 : Fin 2) * 64 + 1 * q.val = q.val; rw [e1]; omega

/-- The payload of point `t`'s blocks at an entry is `edgeWhole` of the arrays at the entry's place in the array. -/
private theorem edge_block (c : Dev nD) (t : Fin cfg0.N) (y : S5000x64.Idx) :
    k0_pay1 (F := Ideal) (iblk0 V c 0 t) (iblk0 V c 1 t) (iblk0 V c 2 t) (iblk0 V c 3 t) (iblk0 V c 4 t) (iblk0 V c 5 t)
        (iblk0 V c 6 t) (iblk0 V c 7 t) y
      = edgeWhole (V c main_v1) (V c main_v2) (V c main_v3) (V c main_arg2) (V c main_arg3) (V c main_arg4)
          (V c main_arg5) (V c main_arg6) (((cfg0.win 8).blk t).view.emb y) := by
  obtain ⟨p, q, rfl⟩ : ∃ (p : Fin 5000) (q : Fin 64), y = ix2 p q := ⟨y 0, y 1, eq_ix2 y⟩
  have hN : cfg0.N = 200 := N_0
  have ht : t.val < 200 := hN ▸ t.isLt
  have hp : p.val < 5000 := p.isLt
  rw [edge_out_emb t p q (by omega)]
  exact edge_entry_of_rows _ _ _ _ _ _ _ _ _ _ _ _ _ _ _ _ p _ q
    (fun j => edge_head_rows V c t _ _ rfl rfl) (fun j => edge_rel_rows V c t _ _ rfl rfl)
    (fun j => edge_query_rows V c t _ _ rfl rfl)
    (edge_Ws_whole V c t) (edge_Wr_whole V c t) (edge_Wq_whole V c t) (edge_bias_whole V c t) (edge_att_whole V c t)

/-- WHAT POINT `t` WRITES BACK is block `t` of `edgeWhole` of the arrays as the launch finds them. -/
private theorem edge_flushed (c : Dev nD) (t : Fin cfg0.N) :
    (dat0 (F := Ideal) V c).flushed 8 t = ((cfg0.win 8).blk t).view.read (Elt Ideal)
      (edgeWhole (V c main_v1) (V c main_v2) (V c main_v3) (V c main_arg2) (V c main_arg3) (V c main_arg4)
        (V c main_arg5) (V c main_arg6)) := by
  show (cfg0.win 8).cut (grid0.coords t) ((dat0 V c).after 8 t) = _
  rw [after0_8]
  unfold out0_8
  rw [View.canon_unit_zero edge_zero2]
  simp only [View.ld_unit_zero (S := S5000x64) edge_zero2, View.ld_unit_zero (S := S64x64) edge_zero2,
    View.ld_unit_zero (S := S64) edge_zero1, View.ld_unit_zero (S := S1x64) edge_zero2]
  funext j
  exact edge_block V c t j

/-- An index of the message array is in point `t`'s block iff each coordinate is in the block's range on its axis. -/
private theorem edge_mem_blk (t : Fin cfg0.N) (i : S1000000x64.Idx) :
    i ∈ ((cfg0.win 8).blk t).view.set ↔ ∀ a : Fin 2, win0_8.index t a * S5000x64.size a ≤ (i a).val
      ∧ (i a).val < win0_8.index t a * S5000x64.size a + S5000x64.size a := by
  show i ∈ ((View.whole main_v4).slice (win0_8.rect t)).set ↔ _
  rw [View.set_slice_whole, Rect.mem_set_unit]
  exact Iff.rfl

/-- Row `r` of the message array is written back by point `r / 5000`: the 200 blocks tile the million rows. -/
private theorem edge_cover (i : S1000000x64.Idx) :
    ∃ t : Fin cfg0.N, (cfg0.win 8).flush t = true ∧ i ∈ ((cfg0.win 8).blk t).view.set := by
  have hi0 : (i 0).val < 1000000 := (i 0).isLt
  have hi1 : (i 1).val < 64 := (i 1).isLt
  have hN : cfg0.N = 200 := N_0
  have hlt : (i 0).val / 5000 < cfg0.N := by rw [hN]; omega
  obtain ⟨-, -, -, -, -, -, -, -, -, -, -, -, -, -, -, e0, e1⟩ := edge_block_index ⟨(i 0).val / 5000, hlt⟩
  refine ⟨⟨(i 0).val / 5000, hlt⟩, flush0_8 _, ?_⟩
  rw [edge_mem_blk]
  intro a
  match a with
  | ⟨0, _⟩ =>
    show win0_8.index ⟨(i 0).val / 5000, hlt⟩ (0 : Fin 2) * 5000 ≤ (i 0).val
      ∧ (i 0).val < win0_8.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_8.index ⟨(i 0).val / 5000, hlt⟩ (1 : Fin 2) * 64 ≤ (i 1).val
      ∧ (i 1).val < win0_8.index ⟨(i 0).val / 5000, hlt⟩ (1 : Fin 2) * 64 + 64
    rw [e1]
    omega

/-- The message array after the first launch, entered at the contents `V`. -/
theorem edge_array (c : Dev nD) :
    ((dat0 (F := Ideal) V c).arrAt 8 cfg0.N : S1000000x64.Idx → EReal)
      = edgeWhole (V c main_v1) (V c main_v2) (V c main_v3) (V c main_arg2) (V c main_arg3) (V c main_arg4)
          (V c main_arg5) (V c main_arg6) :=
  (dat0 (F := Ideal) V c).arrAt_eq_of_cover 8 _ (fun t _ => edge_flushed V c t) edge_cover

end Cert.MsgPass

end
-- ==== Proof.NodeBody.lean ====
/-
  The node kernel's body at one entry of a block of 5000 nodes: two affine layers of the row of summed messages,
  `max · 0`, and the product with the node's mark (a column of the block): entry `(p, q)` is `nodeRow` of row `p`
  times the mark of row `p`.
-/
import proofs.«427528_j67345087201450_2_alg».proof.Proof.Gen.KernelIdeal.Skeleton
import proofs.«427528_j67345087201450_2_alg».proof.Proof.RowSpec
import Idealize.ShloMosaic.PureOps.Ideal.Laws
import Idealize.ShloMosaic.Lib.Pipeline.Value
import Idealize.ShloMosaic.Lib.ValueLayout

noncomputable section

namespace Cert.MsgPass

open Cert.KernelIdeal Cert.KernelIdeal.Gen Idealize.ShloMosaic Idealize.ShloMosaic.ValueIdx

namespace NodeBody

/-! ## The product of a block of rows with a 64 × 64 matrix: its operand indices, axis by axis

At the output entry `(p, q)` and the contraction coordinate `k` the left operand is read at `(p, k)` and the right one
at `(k, q)`. -/

/-- The left operand's row is the output's row. -/
theorem lhs_axis0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contraction coordinate. -/
theorem lhs_axis1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- The right operand's row is the contraction coordinate. -/
theorem rhs_axis0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- The right operand's column is the output's column. -/
theorem rhs_axis1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into the zero accumulator, read at `(p, q)`: the sum over `k` of `x (p, k) * w (k, q)`. -/
theorem product_apply (x : FVec Ideal S5000x64 .bf16) (w : FVec Ideal S64x64 .bf16) (p : Fin 5000) (q : Fin 64) :
    matmul dot_S5000x64_S64x64_S5000x64_1_0_0_1_n_n none x w (constant (F := Ideal) S5000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## One affine layer, and the mark -/

/-- One layer read at `(p, q)`: the row `p` of `x` against the row `q` of the weight (the weight is transposed before the
    product), plus the bias at `q` (a vector made a row and repeated down the block). The narrowing of the operands is the
    identity on the extended reals. -/
theorem layer_apply (x : FVec Ideal S5000x64 .f32) (w : FVec Ideal S64x64 .f32) (b : FVec Ideal S64 .f32)
    (hb : FTy.bits .bf16 < FTy.bits .f32) (ht : S64x64.Transposes [1, 0] S64x64) (hc : S64.ShapeCasts S1x64)
    (hbc : S1x64.Broadcasts S5000x64) (p : Fin 5000) (q : Fin 64) :
    addf (matmul dot_S5000x64_S64x64_S5000x64_1_0_0_1_n_n none (truncf .bf16 x hb) (transpose S64x64 [1, 0] (truncf .bf16 w hb) ht)
          (constant (F := Ideal) S5000x64 .f32 0x00000000#32))
        (broadcastTo S5000x64 (shapeCast S1x64 b hc) hbc) (ix2 p q)
      = (∑ k : Fin 64, x (ix2 p k) * w (ix2 q k)) + b (ix1 q) := by
  refine (addf_apply _ _ _).trans ?_
  refine congrArg₂ (· + ·) ?_ ?_
  · refine (product_apply _ _ p q).trans (Finset.sum_congr rfl fun k _ => ?_)
    refine congrArg₂ (· * ·) rfl ?_
    exact transpose_ix2_apply (truncf .bf16 w hb) ht k q
  · exact (broadcastTo_1b_ab_apply _ hbc p q).trans (shapeCast_a_1a_apply b hc 0 q)

/-- The mark, a column of the block repeated along the rows' 64 entries, read at `(p, q)`: the column's entry `p`. -/
theorem mark_apply (t : FVec Ideal S5000x1 .f32) (hc : S5000x1.ShapeCasts S5000x1) (hb : S5000x1.Broadcasts S5000x64)
    (p : Fin 5000) (q : Fin 64) :
    broadcastTo S5000x64 (shapeCast S5000x1 t hc) hb (ix2 p q) = t (ix2 p 0) := by
  rw [shapeCast_self]
  refine broadcastTo_apply t hb (ix2 p q) (ix2 p (0 : Fin 1)) fun a => ?_
  match a with
  | ⟨0, _⟩ => show p.val = if (5000 : Nat) = 1 then 0 else p.val; rw [if_neg (by decide)]
  | ⟨1, _⟩ => show 0 = if (1 : Nat) = 1 then 0 else q.val; rw [if_pos rfl]

end NodeBody

/-- The node kernel's payload at `(p, q)`: the second layer over the first, `max · 0`, times the mark of row `p`. -/
theorem node_payload (v0 : Vec Ideal S5000x64 .f32) (v3 : Vec Ideal S64x64 .f32) (v7 : Vec Ideal S64 .f32)
    (v12 : Vec Ideal S64x64 .f32) (v16 : Vec Ideal S64 .f32) (v22 : Vec Ideal S5000x1 .f32) (p : Fin 5000) (q : Fin 64) :
    k1_pay1 (F := Ideal) v0 v3 v7 v12 v16 v22 (ix2 p q)
      = nodeRow (rowOf v0 p) (matOf v3) (vecOf v7) (matOf v12) (vecOf v16) q * v22 (ix2 p 0) := by
  unfold k1_pay1
  dsimp only
  refine (mulf_apply _ _ _).trans ?_
  refine congrArg₂ (· * ·) ?_ (NodeBody.mark_apply v22 _ _ p q)
  refine (maximumf_apply _ _ _).trans ?_
  unfold nodeRow
  refine congrArg₂ max ?_ Ideal.ofBits_zero_f32
  refine (NodeBody.layer_apply _ v12 v16 _ _ _ _ p q).trans ?_
  refine congrArg (· + v16 (ix1 q)) ?_
  refine Finset.sum_congr rfl fun k _ => ?_
  refine congrArg (· * v12 (ix2 q k)) ?_
  refine (NodeBody.layer_apply _ v3 v7 _ _ _ _ p k).trans ?_
  rw [shapeCast_self]
  rfl

end Cert.MsgPass

end
-- ==== Proof.NodeArray.lean ====
/-
  From blocks to the array, second launch.  Grid point `t` of 80 writes back rows `5000·t … 5000·t + 4999` of the
  result, from the same rows of the summed messages and of the column of marks; the 80 blocks tile the 400000 rows, so
  the array the launch leaves is `nodeWhole` of the arrays it was entered with.
-/
import proofs.«427528_j67345087201450_2_alg».proof.Proof.Gen.KernelIdeal.Frame
import proofs.«427528_j67345087201450_2_alg».proof.Proof.NodeBody

noncomputable section

set_option maxRecDepth 16384

namespace Cert.MsgPass

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole rank-2 block, as the constant function. -/
private theorem node_zero2 : (![0, 0] : Fin 2 → Nat) = fun _ => 0 := funext fun a => by fin_cases a <;> rfl

/-- The zero offset of a whole rank-1 block, as the constant function. -/
private theorem node_zero1 : (![0] : Fin 1 → Nat) = fun _ => 0 := funext fun a => by fin_cases a <;> rfl

/-- The index maps over the 80 grid points: the summed messages, the column of marks and the result move in blocks of
    rows, block `t` at point `t`, over all their columns; the two weight arrays and the two biases are fetched whole. -/
private theorem node_block_index : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `y 0` of the block of summed messages at point `t` is row `5000·t + y 0` of the array of summed messages. -/
private theorem node_sum_rows (c : Dev nD) (t : Fin cfg1.N) (y : S5000x64.Idx) (k : S400000x64.Idx)
    (hk0 : (k 0).val = 5000 * t.val + (y 0).val) (hk1 : (k 1).val = (y 1).val) :
    (iblk1 V c 0 t : Vec Ideal S5000x64 .f32) y = (V c main_v7 : S400000x64.Idx → EReal) k := by
  obtain ⟨e0, e1, -⟩ := node_block_index t
  unfold iblk1
  rw [View.read_apply]
  show V c main_v7 _ = V c main_v7 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 64 + 1 * (y 1).val = (k 1).val; rw [e1, hk1]; omega

/-- Entry `y 0` of the block of marks at point `t` is entry `5000·t + y 0` of the column of marks. -/
private theorem node_mark_rows (c : Dev nD) (t : Fin cfg1.N) (y : S5000x1.Idx) (k : S400000x1.Idx)
    (hk0 : (k 0).val = 5000 * t.val + (y 0).val) (hk1 : (k 1).val = (y 1).val) :
    (iblk1 V c 1 t : Vec Ideal S5000x1 .f32) y = (V c main_v17 : S400000x1.Idx → EReal) k := by
  obtain ⟨-, -, e0, e1, -⟩ := node_block_index t
  unfold iblk1
  rw [View.read_apply]
  show V c main_v17 _ = V c main_v17 _
  congr 1
  funext a
  apply Fin.ext
  match a with
  | ⟨0, _⟩ => show win1_1.index t (0 : Fin 2) * 5000 + 1 * (y 0).val = (k 0).val; rw [e0, hk0]; omega
  | ⟨1, _⟩ => show win1_1.index t (1 : Fin 2) * 1 + 1 * (y 1).val = (k 1).val; rw [e1, hk1]; omega

/-- The block of the first layer's weights is the whole array, at every point. -/
private theorem node_W1_whole (c : Dev nD) (t : Fin cfg1.N) :
    (iblk1 V c 2 t : Vec Ideal S64x64 .f32) = (V c main_arg8 : S64x64.Idx → EReal) := by
  obtain ⟨-, -, -, -, e0, e1, -⟩ := node_block_index t
  funext y
  unfold iblk1
  rw [View.read_apply]
  show V c main_arg8 _ = V c main_arg8 _
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The block of the first layer's bias is the whole vector. -/
private theorem node_b1_whole (c : Dev nD) (t : Fin cfg1.N) :
    (iblk1 V c 3 t : Vec Ideal S64 .f32) = (V c main_arg9 : S64.Idx → EReal) := by
  obtain ⟨-, -, -, -, -, -, e0, -⟩ := node_block_index t
  funext y
  unfold iblk1
  rw [View.read_apply]
  show V c main_arg9 _ = V c main_arg9 _
  congr 1
  funext a
  apply Fin.ext
  match a with
  | ⟨0, _⟩ => show win1_3.index t (0 : Fin 1) * 64 + 1 * (y 0).val = (y 0).val; rw [e0]; omega

/-- The block of the second layer's weights is the whole array. -/
private theorem node_W2_whole (c : Dev nD) (t : Fin cfg1.N) :
    (iblk1 V c 4 t : Vec Ideal S64x64 .f32) = (V c main_arg10 : S64x64.Idx → EReal) := by
  obtain ⟨-, -, -, -, -, -, -, e0, e1, -⟩ := node_block_index t
  funext y
  unfold iblk1
  rw [View.read_apply]
  show V c main_arg10 _ = V c main_arg10 _
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The block of the second layer's bias is the whole vector. -/
private theorem node_b2_whole (c : Dev nD) (t : Fin cfg1.N) :
    (iblk1 V c 5 t : Vec Ideal S64 .f32) = (V c main_arg11 : S64.Idx → EReal) := by
  obtain ⟨-, -, -, -, -, -, -, -, -, e0, -⟩ := node_block_index t
  funext y
  unfold iblk1
  rw [View.read_apply]
  show V c main_arg11 _ = V c main_arg11 _
  congr 1
  funext a
  apply Fin.ext
  match a with
  | ⟨0, _⟩ => show win1_5.index t (0 : Fin 1) * 64 + 1 * (y 0).val = (y 0).val; rw [e0]; omega

/-- One entry of a block's payload, over blocks whose row `p` is row `P` of the summed messages and of the marks: the
    entry of `nodeWhole` at row `P`. -/
private theorem node_entry_of_rows
    (x0 : Vec Ideal S5000x64 .f32) (x1 : Vec Ideal S5000x1 .f32) (x2 : Vec Ideal S64x64 .f32) (x3 : Vec Ideal S64 .f32)
    (x4 : Vec Ideal S64x64 .f32) (x5 : Vec Ideal S64 .f32)
    (A0 : S400000x64.Idx → EReal) (A1 : S400000x1.Idx → EReal) (B2 : S64x64.Idx → EReal) (B3 : S64.Idx → EReal)
    (B4 : S64x64.Idx → EReal) (B5 : S64.Idx → EReal)
    (p : Fin 5000) (P : Fin 400000) (q : Fin 64)
    (h0 : ∀ j : Fin 64, x0 (ix2 p j) = A0 (ix2 P j)) (h1 : x1 (ix2 p 0) = A1 (ix2 P 0))
    (e2 : x2 = B2) (e3 : x3 = B3) (e4 : x4 = B4) (e5 : x5 = B5) :
    k1_pay1 (F := Ideal) x0 x2 x3 x4 x5 x1 (ix2 p q) = nodeWhole A0 A1 B2 B3 B4 B5 (ix2 P q) := by
  subst e2 e3 e4 e5
  have r0 : rowOf x0 p = rowOf A0 P := funext h0
  rw [node_payload, nodeWhole_apply, r0, h1]

/-- The entry `(p, q)` of point `t`'s block of the result is the array's entry `(5000·t + p, q)`. -/
private theorem node_out_emb (t : Fin cfg1.N) (p : Fin 5000) (q : Fin 64) (h : 5000 * t.val + p.val < 400000) :
    ((cfg1.win 6).blk t).view.emb (ix2 p q) = ix2 (⟨5000 * t.val + p.val, h⟩ : Fin 400000) q := by
  obtain ⟨-, -, -, -, -, -, -, -, -, -, e0, e1⟩ := node_block_index t
  funext a
  apply Fin.ext
  match a with
  | ⟨0, _⟩ => show win1_6.index t (0 : Fin 2) * 5000 + 1 * p.val = 5000 * t.val + p.val; rw [e0]; omega
  | ⟨1, _⟩ => show win1_6.index t (1 : Fin 2) * 64 + 1 * q.val = q.val; rw [e1]; omega

/-- The payload of point `t`'s blocks at an entry is `nodeWhole` of the arrays at the entry's place in the array. -/
private theorem node_block (c : Dev nD) (t : Fin cfg1.N) (y : S5000x64.Idx) :
    k1_pay1 (F := Ideal) (iblk1 V c 0 t) (iblk1 V c 2 t) (iblk1 V c 3 t) (iblk1 V c 4 t) (iblk1 V c 5 t) (iblk1 V c 1 t) y
      = nodeWhole (V c main_v7) (V c main_v17) (V c main_arg8) (V c main_arg9) (V c main_arg10) (V c main_arg11)
          (((cfg1.win 6).blk t).view.emb y) := by
  obtain ⟨p, q, rfl⟩ : ∃ (p : Fin 5000) (q : Fin 64), y = ix2 p q := ⟨y 0, y 1, eq_ix2 y⟩
  have hN : cfg1.N = 80 := N_1
  have ht : t.val < 80 := hN ▸ t.isLt
  have hp : p.val < 5000 := p.isLt
  rw [node_out_emb t p q (by omega)]
  exact node_entry_of_rows _ _ _ _ _ _ _ _ _ _ _ _ p _ q
    (fun j => node_sum_rows V c t _ _ rfl rfl) (node_mark_rows V c t _ _ rfl rfl)
    (node_W1_whole V c t) (node_b1_whole V c t) (node_W2_whole V c t) (node_b2_whole V c t)

/-- WHAT POINT `t` WRITES BACK is block `t` of `nodeWhole` of the arrays as the launch finds them. -/
private theorem node_flushed (c : Dev nD) (t : Fin cfg1.N) :
    (dat1 (F := Ideal) V c).flushed 6 t = ((cfg1.win 6).blk t).view.read (Elt Ideal)
      (nodeWhole (V c main_v7) (V c main_v17) (V c main_arg8) (V c main_arg9) (V c main_arg10) (V c main_arg11)) := by
  show (cfg1.win 6).cut (grid1.coords t) ((dat1 V c).after 6 t) = _
  rw [after1_6]
  unfold out1_6
  rw [View.canon_unit_zero node_zero2]
  simp only [View.ld_unit_zero (S := S5000x64) node_zero2, View.ld_unit_zero (S := S5000x1) node_zero2,
    View.ld_unit_zero (S := S64x64) node_zero2, View.ld_unit_zero (S := S64) node_zero1]
  funext j
  exact node_block V c t j

/-- An index of the result is in point `t`'s block iff each coordinate is in the block's range on its axis. -/
private theorem node_mem_blk (t : Fin cfg1.N) (i : S400000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v18).slice (win1_6.rect t)).set ↔ _
  rw [View.set_slice_whole, Rect.mem_set_unit]
  exact Iff.rfl

/-- Row `r` of the result is written back by point `r / 5000`: the 80 blocks tile the 400000 rows. -/
private theorem node_cover (i : S400000x64.Idx) :
    ∃ t : Fin cfg1.N, (cfg1.win 6).flush t = true ∧ i ∈ ((cfg1.win 6).blk t).view.set := by
  have hi0 : (i 0).val < 400000 := (i 0).isLt
  have hi1 : (i 1).val < 64 := (i 1).isLt
  have hN : cfg1.N = 80 := N_1
  have hlt : (i 0).val / 5000 < cfg1.N := by rw [hN]; omega
  obtain ⟨-, -, -, -, -, -, -, -, -, -, e0, e1⟩ := node_block_index ⟨(i 0).val / 5000, hlt⟩
  refine ⟨⟨(i 0).val / 5000, hlt⟩, flush1_6 _, ?_⟩
  rw [node_mem_blk]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, hlt⟩ (1 : Fin 2) * 64 ≤ (i 1).val
      ∧ (i 1).val < win1_6.index ⟨(i 0).val / 5000, hlt⟩ (1 : Fin 2) * 64 + 64
    rw [e1]
    omega

/-- The result array after the second launch, entered at the contents `V`. -/
theorem node_array (c : Dev nD) :
    ((dat1 (F := Ideal) V c).arrAt 6 cfg1.N : S400000x64.Idx → EReal)
      = nodeWhole (V c main_v7) (V c main_v17) (V c main_arg8) (V c main_arg9) (V c main_arg10) (V c main_arg11) :=
  (dat1 (F := Ideal) V c).arrAt_eq_of_cover 6 _ (fun t _ => node_flushed V c t) node_cover

end Cert.MsgPass

end
-- ==== Proof.TakeRange.lean ====
/-
  A row lookup whose indices are all inside the table is the plain clamped fetch: every wrapped index is the index
  itself and lies in `[0, N - 1]`, so every bit of the in-range mask is set and the fill is never chosen.
-/
import proofs.«427528_j67345087201450_2_alg».proof.Proof.TakeTerm
import proofs.«427528_j67345087201450_2_alg».proof.Proof.RowSpec
import Idealize.ShloMosaic.Lib.StableHlo.Predicate
import Idealize.ShloMosaic.Lib.ReduceAll
import Idealize.ShloMosaic.Lib.ValueIdx

noncomputable section

namespace Cert.MsgPass

open Cert.KernelIdeal Cert.KernelIdeal.Gen Idealize.ShloMosaic Idealize.ShloMosaic.ValueIdx

/-! ## Words: the three signed comparisons the lookup makes, on a word whose signed value is known -/

/-- A word of non-negative signed value is not below the zero word. -/
private theorem slt_zero_of_nonneg (w : BitVec 32) (h : 0 ≤ w.toInt) : IntOp.cmpi .slt w 0#32 = 0#1 := by
  show BitVec.ofBool (w.slt 0#32) = 0#1
  have h0 : (0#32 : BitVec 32).toInt = 0 := by decide
  have hb : w.slt 0#32 = false := by
    simp only [BitVec.slt, h0, decide_eq_false_iff_not, not_lt]; exact h
  rw [hb]; rfl

/-- A word of non-negative signed value is at least the zero word. -/
private theorem sge_zero_of_nonneg (w : BitVec 32) (h : 0 ≤ w.toInt) : IntOp.cmpi .sge w 0#32 = 1#1 := by
  show BitVec.ofBool ((0#32 : BitVec 32).sle w) = 1#1
  have h0 : (0#32 : BitVec 32).toInt = 0 := by decide
  have hb : (0#32 : BitVec 32).sle w = true := by
    simp only [BitVec.sle, h0, decide_eq_true_eq]; exact h
  rw [hb]; rfl

/-- The signed `≤` of two words is the order of their signed values. -/
private theorem sle_of_toInt_le (w hi : BitVec 32) (h : w.toInt ≤ hi.toInt) : IntOp.cmpi .sle w hi = 1#1 := by
  show BitVec.ofBool (w.sle hi) = 1#1
  have hb : w.sle hi = true := by
    simp only [BitVec.sle, decide_eq_true_eq]; exact h
  rw [hb]; rfl

/-! ## A reduction by `and` of set bits, started at the set bit, is the set bit -/

private theorem foldl_andi_of_all_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons.2 (Or.inl rfl)), show IntOp.andi (1#1 : BitVec 1) 1#1 = 1#1 from by decide]
    exact ih (fun n hn => h n (List.mem_cons.2 (Or.inr hn)))

private theorem reduce_andi_of_all_one {s t u : Shape} {axes : List (Fin s.rank)} (x : s.Idx → BitVec 1)
    (init : u.Idx → BitVec 1) (h : s.ReducesTo axes t) (hu : 0 < u.numel) (hinit : init (Shape.Idx.first hu) = 1#1)
    (hx : ∀ i, x i = 1#1) (j : t.Idx) : Host.reduce IntOp.andi x init h hu j = 1#1 := by
  rw [Host.reduce_eq_foldl, hinit]
  exact foldl_andi_of_all_one x _ (fun n _ => hx n)

/-! ## The wrapped index of a non-negative index is the index -/

/-- The column of start indices reads, at row `e`, the vector at `e`. -/
private theorem col_apply {α : Type} (v : S1000000.Idx → α) (e : Fin 1000000) (q : Fin 1) :
    broadcastInDim S1000000x1 ![0] bcast_S1000000_S1000000x1_0 v (ix2 e q) = v (ix1 e) := by
  simp only [broadcastInDim]
  congr 1
  funext d
  match d with
  | ⟨0, _⟩ =>
    apply Fin.ext
    split
    · next h1 => change (1000000 : Nat) = 1 at h1; omega
    · rfl

private theorem wrapIdx_apply (N : BitVec 32) (a : IVec S1000000 32) (e : Fin 1000000) (q : Fin 1)
    (h : 0 ≤ (a (ix1 e)).toInt) : wrapIdx N a (ix2 e q) = a (ix1 e) := by
  unfold wrapIdx
  rw [col_apply, select_apply]
  have hc : cmpi .slt a (broadcastInDim S1000000 ![] bcast_S_S1000000 (constantI S_ 32 0#32)) (ix1 e) = 0#1 :=
    slt_zero_of_nonneg (a (ix1 e)) h
  rw [hc, select_zero]

/-! ## Every bit of the in-range mask is set -/

private theorem inRangeMask_wrapIdx (hi N : BitVec 32) (n : Int) (hhi : hi.toInt = n - 1) (a : IVec S1000000 32)
    (ha : InRange n a) (j : S1000000.Idx) : inRangeMask hi (wrapIdx N a) j = 1#1 := by
  unfold inRangeMask
  refine reduce_andi_of_all_one _ _ _ _ rfl (fun i => ?_) j
  obtain ⟨e, q, rfl⟩ : ∃ (e : Fin 1000000) (q : Fin 1), i = ix2 e q := ⟨i 0, i 1, eq_ix2 i⟩
  obtain ⟨h0, h1⟩ := ha e
  have hw : wrapIdx N a (ix2 e q) = a (ix1 e) := wrapIdx_apply N a e q h0
  show IntOp.andi (IntOp.cmpi .sge (wrapIdx N a (ix2 e q)) 0#32) (IntOp.cmpi .sle (wrapIdx N a (ix2 e q)) hi) = 1#1
  rw [hw, sge_zero_of_nonneg _ h0, sle_of_toInt_le _ _ (by omega)]
  decide

/-! ## The lookup is the fetch -/

/-- With every index in `[0, n)` and `hi` the word of `n - 1`, the select on the mask takes the fetched rows everywhere. -/
private theorem select_inRange (hi N : BitVec 32) (n : Int) (hhi : hi.toInt = n - 1) (a : IVec S1000000 32)
    (ha : InRange n a) (G : FVec Ideal S1000000x64 .f32) :
    select (broadcastInDim S1000000x64 ![0] bcast_S1000000_S1000000x64_0 (inRangeMask hi (wrapIdx N a))) G
      (fillRows (F := Ideal)) = G := by
  funext i
  rw [select_apply]
  have hm : broadcastInDim S1000000x64 ![0] bcast_S1000000_S1000000x64_0 (inRangeMask hi (wrapIdx N a)) i = 1#1 := by
    simp only [broadcastInDim]
    exact inRangeMask_wrapIdx hi N n hhi a ha _
  rw [hm, select_one]

theorem takeSub_of_inRange (x : FVec Ideal S400000x64 .f32) (a : IVec S1000000 32) (ha : InRange 400000 a) :
    takeSub (F := Ideal) x a = Host.gather gather_S400000x64_S1000000x1_S1000000x64_1_0_n_n_0_1_164 x (wrapIdx 400000#32 a) := by
  unfold takeSub
  exact select_inRange 399999#32 400000#32 400000 (by decide) a ha _

theorem takeRel_of_inRange (x : FVec Ideal S401x64 .f32) (a : IVec S1000000 32) (ha : InRange 401 a) :
    takeRel (F := Ideal) x a = Host.gather gather_S401x64_S1000000x1_S1000000x64_1_0_n_n_0_1_164 x (wrapIdx 401#32 a) := by
  unfold takeRel
  exact select_inRange 400#32 401#32 401 (by decide) a ha _

theorem takeBat_of_inRange (x : FVec Ideal S8x64 .f32) (a : IVec S1000000 32) (ha : InRange 8 a) :
    takeBat (F := Ideal) x a = Host.gather gather_S8x64_S1000000x1_S1000000x64_1_0_n_n_0_1_164 x (wrapIdx 8#32 a) := by
  unfold takeBat
  exact select_inRange 7#32 8#32 8 (by decide) a ha _

end Cert.MsgPass

end
-- ==== Proof.KernelValue.lean ====
/-
  The kernel's result as one function of the argument arrays.

  Reading the result buffer back from the return to the launch: the final reshape reads the second launch's output;
  that launch leaves `nodeWhole` of the summed messages, the column of marks and the four perceptron arrays; the summed
  messages are the accumulating scatter of the first launch's output, which is `edgeWhole` of the three looked-up row
  arrays and the five gate arrays; and the three lookups read the argument arrays.  Every argument array reaches the
  place that reads it unchanged, because no stretch and no launch in between writes it.  Under the precondition's ranges
  each lookup is the plain clamped fetch.
-/
import proofs.«427528_j67345087201450_2_alg».proof.Proof.HostValue
import proofs.«427528_j67345087201450_2_alg».proof.Proof.EdgeArray
import proofs.«427528_j67345087201450_2_alg».proof.Proof.NodeArray
import proofs.«427528_j67345087201450_2_alg».proof.Proof.TakeRange

noncomputable section

set_option maxRecDepth 16384

namespace Cert.MsgPass

open Cert.KernelIdeal Cert.KernelIdeal.Gen Idealize.ShloMosaic Idealize.ShloMosaic.TcCoe Idealize.SL.Sem
open Idealize.ShloMosaic.StableHlo

/-- No operation of the stretch writes the buffer: the side condition, operation by operation. -/
macro "no_write" : tactic =>
  `(tactic| (
      simp only [hostOps0, hostOps0_1, hostOps0_2, hostOps0_3, hostOps1, hostOps2, List.flatten_cons, List.flatten_nil,
        List.append_nil, List.cons_append, List.nil_append, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide)))

/-- One step back over a stretch that does not write the buffer. -/
macro "step_stretch" : tactic =>
  `(tactic| (
      refine Eq.trans (StableHlo.after_of_forall_not_mem _ _ (List.forall_iff_forall_mem.mp ?side)) ?rest
      case side => no_write))

/-- One step back over the second launch, for a buffer that is none of its arrays. -/
macro "step_launch1" : tactic =>
  `(tactic| (
      refine Eq.trans (W7_of_ne _ _ _ _ ?side) ?rest
      case side => decide))

/-- One step back over the first launch, for a buffer that is none of its arrays. -/
macro "step_launch0" : tactic =>
  `(tactic| (
      refine Eq.trans (W5_of_ne _ _ _ _ ?side) ?rest
      case side => decide))

/-- Step a buffer's contents back over every stretch and launch that does not write it. -/
macro "walk_back" : tactic =>
  `(tactic| repeat (first | step_stretch | step_launch1 | step_launch0))

variable (m : (ℓ : Loc nD τ sig) → Buf (Elt Ideal) ℓ) (ρ : Dev nD → PrngReg) (c : Dev nD)

/-! ## The lookups, as the first launch finds them -/

theorem head_rows : W4 m ρ c (Proc.devRef .tc main_v1)
    = takeSub (F := Ideal) (shapeCast _ (m ((c : Thread nD τ).loc main_arg1)) shapeCasts_S8x50000x64_S400000x64) (m ((c : Thread nD τ).loc main_arg13)) := by
  walk_back
  refine (after_take_sub (W1 m ρ c)).trans ?_
  have h0 : W1 m ρ c (Proc.devRef .tc main_v0) = shapeCast _ (m ((c : Thread nD τ).loc main_arg1)) shapeCasts_S8x50000x64_S400000x64 :=
    after_reshape_nodes (W0 m ρ c)
  have h13 : W1 m ρ c (Proc.devRef .tc main_arg13) = m ((c : Thread nD τ).loc main_arg13) := by walk_back; rfl
  rw [h0, h13]

theorem rel_rows : W4 m ρ c (Proc.devRef .tc main_v2) = takeRel (F := Ideal) (m ((c : Thread nD τ).loc main_arg7)) (m ((c : Thread nD τ).loc main_arg14)) := by
  walk_back
  refine (after_take_rel (W2 m ρ c)).trans ?_
  have h7 : W2 m ρ c (Proc.devRef .tc main_arg7) = m ((c : Thread nD τ).loc main_arg7) := by walk_back; rfl
  have h14 : W2 m ρ c (Proc.devRef .tc main_arg14) = m ((c : Thread nD τ).loc main_arg14) := by walk_back; rfl
  rw [h7, h14]

theorem query_rows : W4 m ρ c (Proc.devRef .tc main_v3) = takeBat (F := Ideal) (m ((c : Thread nD τ).loc main_arg0)) (m ((c : Thread nD τ).loc main_arg12)) := by
  refine (after_take_bat (W3 m ρ c)).trans ?_
  have h0 : W3 m ρ c (Proc.devRef .tc main_arg0) = m ((c : Thread nD τ).loc main_arg0) := by walk_back; rfl
  have h12 : W3 m ρ c (Proc.devRef .tc main_arg12) = m ((c : Thread nD τ).loc main_arg12) := by walk_back; rfl
  rw [h0, h12]

/-! ## The first launch's output -/

/-- The three looked-up row arrays, under the ranges the plain fetches. -/
def headRows : FVec Ideal S1000000x64 .f32 :=
  Host.gather gather_S400000x64_S1000000x1_S1000000x64_1_0_n_n_0_1_164
    (shapeCast _ (m ((c : Thread nD τ).loc main_arg1)) shapeCasts_S8x50000x64_S400000x64) (wrapIdx 400000#32 (m ((c : Thread nD τ).loc main_arg13)))
def relRows : FVec Ideal S1000000x64 .f32 :=
  Host.gather gather_S401x64_S1000000x1_S1000000x64_1_0_n_n_0_1_164 (m ((c : Thread nD τ).loc main_arg7)) (wrapIdx 401#32 (m ((c : Thread nD τ).loc main_arg14)))
def queryRows : FVec Ideal S1000000x64 .f32 :=
  Host.gather gather_S8x64_S1000000x1_S1000000x64_1_0_n_n_0_1_164 (m ((c : Thread nD τ).loc main_arg0)) (wrapIdx 8#32 (m ((c : Thread nD τ).loc main_arg12)))

/-- All the messages. -/
def messages : FVec Ideal S1000000x64 .f32 :=
  edgeWhole (headRows m c) (relRows m c) (queryRows m c) (m ((c : Thread nD τ).loc main_arg2)) (m ((c : Thread nD τ).loc main_arg3)) (m ((c : Thread nD τ).loc main_arg4)) (m ((c : Thread nD τ).loc main_arg5)) (m ((c : Thread nD τ).loc main_arg6))

set_option maxHeartbeats 2000000 in
theorem messages_eq (hbat : InRange 8 (m ((c : Thread nD τ).loc main_arg12))) (hsub : InRange 400000 (m ((c : Thread nD τ).loc main_arg13))) (hrel : InRange 401 (m ((c : Thread nD τ).loc main_arg14))) :
    W5 m ρ c (Proc.devRef .tc main_v4) = messages m c := by
  refine (W5_arr m ρ c 8).trans ?_
  refine (edge_array (V4 m ρ) c).trans ?_
  have h1 : V4 m ρ c main_v1 = headRows m c := (head_rows m ρ c).trans (takeSub_of_inRange _ _ hsub)
  have h2 : V4 m ρ c main_v2 = relRows m c := (rel_rows m ρ c).trans (takeRel_of_inRange _ _ hrel)
  have h3 : V4 m ρ c main_v3 = queryRows m c := (query_rows m ρ c).trans (takeBat_of_inRange _ _ hbat)
  have a2 : V4 m ρ c main_arg2 = m ((c : Thread nD τ).loc main_arg2) := by walk_back; rfl
  have a3 : V4 m ρ c main_arg3 = m ((c : Thread nD τ).loc main_arg3) := by walk_back; rfl
  have a4 : V4 m ρ c main_arg4 = m ((c : Thread nD τ).loc main_arg4) := by walk_back; rfl
  have a5 : V4 m ρ c main_arg5 = m ((c : Thread nD τ).loc main_arg5) := by walk_back; rfl
  have a6 : V4 m ρ c main_arg6 = m ((c : Thread nD τ).loc main_arg6) := by walk_back; rfl
  rw [h1, h2, h3, a2, a3, a4, a5, a6]
  rfl

/-! ## The second launch's output and the result -/

/-- The kernel's result before its last reshape. -/
def newRows : FVec Ideal S400000x64 .f32 :=
  nodeWhole (sumMessages (m ((c : Thread nD τ).loc main_arg15)) (messages m c)) (markCol (F := Ideal) (m ((c : Thread nD τ).loc main_arg15)))
    (m ((c : Thread nD τ).loc main_arg8)) (m ((c : Thread nD τ).loc main_arg9)) (m ((c : Thread nD τ).loc main_arg10)) (m ((c : Thread nD τ).loc main_arg11))

set_option maxHeartbeats 2000000 in
theorem newRows_eq (hbat : InRange 8 (m ((c : Thread nD τ).loc main_arg12))) (hsub : InRange 400000 (m ((c : Thread nD τ).loc main_arg13))) (hrel : InRange 401 (m ((c : Thread nD τ).loc main_arg14))) :
    W7 m ρ c (Proc.devRef .tc main_v18) = newRows m c := by
  refine (W7_arr m ρ c 6).trans ?_
  refine (node_array (V6 m ρ) c).trans ?_
  have a15 : W5 m ρ c (Proc.devRef .tc main_arg15) = m ((c : Thread nD τ).loc main_arg15) := by walk_back; rfl
  have h7 : V6 m ρ c main_v7 = sumMessages (m ((c : Thread nD τ).loc main_arg15)) (messages m c) := by
    refine (after_sum_messages (W5 m ρ c)).trans ?_
    rw [a15, messages_eq m ρ c hbat hsub hrel]
  have h17 : V6 m ρ c main_v17 = markCol (F := Ideal) (m ((c : Thread nD τ).loc main_arg15)) := by
    refine (after_marks (W5 m ρ c)).trans ?_
    rw [a15]
  have a8 : V6 m ρ c main_arg8 = m ((c : Thread nD τ).loc main_arg8) := by walk_back; rfl
  have a9 : V6 m ρ c main_arg9 = m ((c : Thread nD τ).loc main_arg9) := by walk_back; rfl
  have a10 : V6 m ρ c main_arg10 = m ((c : Thread nD τ).loc main_arg10) := by walk_back; rfl
  have a11 : V6 m ρ c main_arg11 = m ((c : Thread nD τ).loc main_arg11) := by walk_back; rfl
  rw [h7, h17, a8, a9, a10, a11]
  rfl

/-- The result buffer at the return, as a function of the argument arrays. -/
theorem result_eq (hbat : InRange 8 (m ((c : Thread nD τ).loc main_arg12))) (hsub : InRange 400000 (m ((c : Thread nD τ).loc main_arg13))) (hrel : InRange 401 (m ((c : Thread nD τ).loc main_arg14))) :
    W8 m ρ c (Proc.devRef .tc main_v19) = shapeCast _ (newRows m c) shapeCasts_S400000x64_S8x50000x64 := by
  refine (after_result (W7 m ρ c)).trans ?_
  rw [newRows_eq m ρ c hbat hsub hrel]

end Cert.MsgPass

end
-- ==== Proof.RefEdge.lean ====
/-
  The reference's message array, read one entry at a time.  The reference forms the same three products by
  `dot_general` against the transposed weights, adds them in the same order, adds the bias (broadcast over the rows),
  takes `max · 0`, contracts with the transposed attention row, applies `1 / (1 + exp (-x))` — which over the extended
  reals IS the logistic — and multiplies the entrywise product of the two gathered rows by that number broadcast along
  the row: entry `(e, d)` is `edgeRow` of rows `e` of the three gathered arrays.
-/
import proofs.«427528_j67345087201450_2_alg».proof.Proof.RefRead
import proofs.«427528_j67345087201450_2_alg».proof.Proof.RowSpec
import Idealize.ShloMosaic.PureOps.Ideal.Laws
import Idealize.ShloMosaic.Lib.ValueIdx

noncomputable section

namespace Cert.MsgPass

open Cert.ReferenceIdeal Cert.ReferenceIdeal.Gen Cert.ReferenceIdeal.ReadP Idealize.ShloMosaic Idealize.ShloMosaic.ValueIdx

/-! ## The number one and the logistic -/

/-- The word of the float `1.0` is the extended real `1`. -/
private theorem one_f32 : Ideal.ofBits .f32 0x3F800000#32 = 1 := IdealRules.sign_bit.ideal_onePat .f32

/-- `1 / (1 + exp (-x))`, with both ones written as float words, is the logistic of `x`. -/
private theorem logistic_spelt (x : EReal) :
    Ideal.div (Ideal.ofBits .f32 0x3F800000#32) (Ideal.ofBits .f32 0x3F800000#32 + Ideal.exp (-x)) = Ideal.logistic x := by
  rw [one_f32]; rfl

/-- The specification's entry `(e, d)` written out in full over the arrays: what the reference's reading arrives at. -/
private theorem edgeWhole_spelt (h r q : (⟨2, ![1000000, 64]⟩ : Shape).Idx → EReal) (Ws Wr Wq : (⟨2, ![64, 64]⟩ : Shape).Idx → EReal)
    (b : (⟨1, ![64]⟩ : Shape).Idx → EReal) (wa : (⟨2, ![1, 64]⟩ : Shape).Idx → EReal) (e : Fin 1000000) (d : Fin 64) :
    (h (ix2 e d) * r (ix2 e d)) * Ideal.div (Ideal.ofBits .f32 0x3F800000#32) (Ideal.ofBits .f32 0x3F800000#32 + Ideal.exp (-(∑ k : Fin 64,
      max ((((∑ j : Fin 64, h (ix2 e j) * Ws (ix2 k j)) + (∑ j : Fin 64, r (ix2 e j) * Wr (ix2 k j))) + (∑ j : Fin 64, q (ix2 e j) * Wq (ix2 k j))) + b (ix1 k)) 0 * wa (ix2 0 k))))
    = edgeWhole h r q Ws Wr Wq b wa (ix2 e d) := by
  rw [edgeWhole_apply, logistic_spelt]
  rfl

/-! ## Where each operation reads its operand, in coordinates -/

/-- The gate's column is broadcast along the row: entry `(e, d)` reads entry `(e, 0)`. -/
private theorem at_v43 (e : Fin 1000000) (d : Fin 64) : idx_main_v43 (ix2 e d) = ix2 e (0 : Fin 1) := funext fun a => Fin.ext (by match a with | ⟨0, _⟩ => rfl | ⟨1, _⟩ => rfl)
/-- The contraction with the attention row: term `k` of entry `(e, z)` reads the hidden row's entry `(e, k)` … -/
private theorem at_l36 (e : Fin 1000000) (z : Fin 1) (k : Fin 64) : lidx_main_v36 (ix2 e z) k = ix2 e k := funext fun a => Fin.ext (by match a with | ⟨0, _⟩ => rfl | ⟨1, _⟩ => rfl)
/-- … and the transposed attention row's entry `(k, z)`, -/
private theorem at_r36 (e : Fin 1000000) (z : Fin 1) (k : Fin 64) : ridx_main_v36 (ix2 e z) k = ix2 k z := funext fun a => Fin.ext (by match a with | ⟨0, _⟩ => rfl | ⟨1, _⟩ => rfl)
/-- which is the attention row's entry `(z, k)`. -/
private theorem at_v35 (k : Fin 64) (z : Fin 1) : idx_main_v35 (ix2 k z) = ix2 z k := funext fun a => Fin.ext (by match a with | ⟨0, _⟩ => rfl | ⟨1, _⟩ => rfl)
/-- The bias broadcast over the rows: entry `(e, k)` reads entry `(0, k)` of the one-row array, -/
private theorem at_v32 (e : Fin 1000000) (k : Fin 64) : idx_main_v32 (ix2 e k) = ix2 (0 : Fin 1) k := funext fun a => Fin.ext (by match a with | ⟨0, _⟩ => rfl | ⟨1, _⟩ => rfl)
/-- which is entry `k` of the bias vector. -/
private theorem at_v31 (z : Fin 1) (k : Fin 64) : idx_main_v31 (ix2 z k) = ix1 k := funext fun a => Fin.ext (by match a with | ⟨0, _⟩ => rfl)
/-- The three products against the transposed weights: term `j` of entry `(e, k)` reads the row's entry `(e, j)` … -/
private theorem at_l24 (e : Fin 1000000) (k j : Fin 64) : lidx_main_v24 (ix2 e k) j = ix2 e j := funext fun a => Fin.ext (by match a with | ⟨0, _⟩ => rfl | ⟨1, _⟩ => rfl)
private theorem at_l26 (e : Fin 1000000) (k j : Fin 64) : lidx_main_v26 (ix2 e k) j = ix2 e j := funext fun a => Fin.ext (by match a with | ⟨0, _⟩ => rfl | ⟨1, _⟩ => rfl)
private theorem at_l29 (e : Fin 1000000) (k j : Fin 64) : lidx_main_v29 (ix2 e k) j = ix2 e j := funext fun a => Fin.ext (by match a with | ⟨0, _⟩ => rfl | ⟨1, _⟩ => rfl)
/-- … and the transposed weight's entry `(j, k)`, -/
private theorem at_r24 (e : Fin 1000000) (k j : Fin 64) : ridx_main_v24 (ix2 e k) j = ix2 j k := funext fun a => Fin.ext (by match a with | ⟨0, _⟩ => rfl | ⟨1, _⟩ => rfl)
private theorem at_r26 (e : Fin 1000000) (k j : Fin 64) : ridx_main_v26 (ix2 e k) j = ix2 j k := funext fun a => Fin.ext (by match a with | ⟨0, _⟩ => rfl | ⟨1, _⟩ => rfl)
private theorem at_r29 (e : Fin 1000000) (k j : Fin 64) : ridx_main_v29 (ix2 e k) j = ix2 j k := funext fun a => Fin.ext (by match a with | ⟨0, _⟩ => rfl | ⟨1, _⟩ => rfl)
/-- which is the weight's entry `(k, j)`. -/
private theorem at_v23 (j k : Fin 64) : idx_main_v23 (ix2 j k) = ix2 k j := funext fun a => Fin.ext (by match a with | ⟨0, _⟩ => rfl | ⟨1, _⟩ => rfl)
private theorem at_v25 (j k : Fin 64) : idx_main_v25 (ix2 j k) = ix2 k j := funext fun a => Fin.ext (by match a with | ⟨0, _⟩ => rfl | ⟨1, _⟩ => rfl)
private theorem at_v28 (j k : Fin 64) : idx_main_v28 (ix2 j k) = ix2 k j := funext fun a => Fin.ext (by match a with | ⟨0, _⟩ => rfl | ⟨1, _⟩ => rfl)

/-! ## The reference's message array -/

theorem ref_message (x0 : (⟨S8x64, .f32⟩ : BufTy).Contents (Elt Ideal)) (x1 : (⟨S8x50000x64, .f32⟩ : BufTy).Contents (Elt Ideal)) (x2 x3 x4 : (⟨S64x64, .f32⟩ : BufTy).Contents (Elt Ideal))
    (x5 : (⟨S64, .f32⟩ : BufTy).Contents (Elt Ideal)) (x6 : (⟨S1x64, .f32⟩ : BufTy).Contents (Elt Ideal)) (x7 : (⟨S401x64, .f32⟩ : BufTy).Contents (Elt Ideal))
    (x12 x13 x14 : (⟨S1000000, .i32⟩ : BufTy).Contents (Elt Ideal)) :
    val_main_v44 (F := Ideal) x0 x1 x2 x3 x4 x5 x6 x7 x12 x13 x14
      = edgeWhole (val_main_v7 (F := Ideal) x1 x13) (val_main_v14 (F := Ideal) x7 x14) (val_main_v21 (F := Ideal) x0 x12) x2 x3 x4 x5 x6 := by
  funext i
  obtain ⟨e, d, rfl⟩ : ∃ (e : Fin 1000000) (d : Fin 64), i = ix2 e d := ⟨i 0, i 1, eq_ix2 i⟩
  refine Eq.trans ?_ (edgeWhole_spelt _ _ _ x2 x3 x4 x5 x6 e d)
  simp only [val_main_v44_apply, val_main_v22_apply, val_main_v43_apply, val_main_v42_apply, val_main_v41_apply, val_main_cst_5_apply,
    val_main_v40_apply, val_main_v39_apply, val_main_cst_apply, val_main_v38_apply, val_main_v37_apply, val_main_v36_apply,
    val_main_v35_apply, val_main_v34_apply, val_main_call0_v0_apply, val_main_call0_cst_apply, val_main_v33_apply,
    val_main_v32_apply, val_main_v31_apply, val_main_v30_apply, val_main_v29_apply, val_main_v28_apply, val_main_v27_apply,
    val_main_v26_apply, val_main_v25_apply, val_main_v24_apply, val_main_v23_apply,
    at_v43, at_l36, at_r36, at_v35, at_v32, at_v31, at_l24, at_l26, at_l29, at_r24, at_r26, at_r29, at_v23, at_v25, at_v28,
    Ideal.mulf_def, Ideal.addf_def, Ideal.hostDivf_def, Ideal.hostUnary_exp_def, Ideal.hostNegf_def, Ideal.negf_def,
    Ideal.maximumf_def, Ideal.ofBits_def, Ideal.ofBits_zero_f32]

end Cert.MsgPass

end
-- ==== Proof.RefNode.lean ====
/-
  The reference's result before its last reshape, read one entry at a time.  Row `p` of the summed messages goes through
  the two affine layers (`dot_general` against the transposed weights, the bias broadcast over the rows) and `max · 0`;
  the result is kept where the node's mark (a bit, broadcast along the row) is set and replaced by `0` elsewhere.
-/
import proofs.«427528_j67345087201450_2_alg».proof.Proof.RefRead
import proofs.«427528_j67345087201450_2_alg».proof.Proof.RowSpec
import Idealize.ShloMosaic.PureOps.Ideal.Laws
import Idealize.ShloMosaic.Lib.ValueIdx

noncomputable section

namespace Cert.MsgPass

open Cert.ReferenceIdeal Cert.ReferenceIdeal.Gen Cert.ReferenceIdeal.ReadP Idealize.ShloMosaic Idealize.ShloMosaic.ValueIdx

/-- The entrywise choice: a set bit takes the first value, a cleared bit the second. -/
private theorem select_bit {α : Type} (c : BitVec 1) (a b : α) : Scalar.select c a b = if c = 1#1 then a else b := rfl

theorem ref_result (x0 : (⟨S8x64, .f32⟩ : BufTy).Contents (Elt Ideal)) (x1 : (⟨S8x50000x64, .f32⟩ : BufTy).Contents (Elt Ideal)) (x2 x3 x4 : (⟨S64x64, .f32⟩ : BufTy).Contents (Elt Ideal))
    (x5 : (⟨S64, .f32⟩ : BufTy).Contents (Elt Ideal)) (x6 : (⟨S1x64, .f32⟩ : BufTy).Contents (Elt Ideal)) (x7 : (⟨S401x64, .f32⟩ : BufTy).Contents (Elt Ideal))
    (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal))
    (x12 x13 x14 x15 : (⟨S1000000, .i32⟩ : BufTy).Contents (Elt Ideal)) (p : Fin 400000) (d : Fin 64) :
    val_main_v69 (F := Ideal) x0 x1 x2 x3 x4 x5 x6 x7 x8 x9 x10 x11 x12 x13 x14 x15 (ix2 p d)
      = if val_main_v56 (F := Ideal) x15 (ix1 p) = 1#1
        then nodeRow (rowOf (val_main_v47 (F := Ideal) x0 x1 x2 x3 x4 x5 x6 x7 x12 x13 x14 x15) p) (matOf x8) (vecOf x9) (matOf x10) (vecOf x11) d
        else 0 := by
  -- the composed index maps of the stages, at the entry (p, d) and at the summation variables
  have e56 : idx_main_v68 (idx_main_call2_v0 (ix2 p d)) = ix1 p :=
    funext fun a => Fin.ext (by match a with | ⟨0, _⟩ => rfl)
  have e47 : ∀ k j : Fin 64, lidx_main_v58 (lidx_main_v63 (ix2 p d) k) j = ix2 p j := fun k j =>
    funext fun a => Fin.ext (by match a with | ⟨0, _⟩ => rfl | ⟨1, _⟩ => rfl)
  have e8 : ∀ k j : Fin 64, idx_main_v57 (ridx_main_v58 (lidx_main_v63 (ix2 p d) k) j) = ix2 k j := fun k j =>
    funext fun a => Fin.ext (by match a with | ⟨0, _⟩ => rfl | ⟨1, _⟩ => rfl)
  have e9 : ∀ k : Fin 64, idx_main_v59 (idx_main_v60 (lidx_main_v63 (ix2 p d) k)) = ix1 k := fun k =>
    funext fun a => Fin.ext (by match a with | ⟨0, _⟩ => rfl)
  have e10 : ∀ k : Fin 64, idx_main_v62 (ridx_main_v63 (ix2 p d) k) = ix2 d k := fun k =>
    funext fun a => Fin.ext (by match a with | ⟨0, _⟩ => rfl | ⟨1, _⟩ => rfl)
  have e11 : idx_main_v64 (idx_main_v65 (ix2 p d)) = ix1 d :=
    funext fun a => Fin.ext (by match a with | ⟨0, _⟩ => rfl)
  -- the first layer at row p, entry k: the affine map of the summed messages plus its bias
  have h61 : ∀ k : Fin 64, val_main_v61 (F := Ideal) x0 x1 x2 x3 x4 x5 x6 x7 x8 x9 x12 x13 x14 x15 (lidx_main_v63 (ix2 p d) k)
      = rowDot (rowOf (val_main_v47 (F := Ideal) x0 x1 x2 x3 x4 x5 x6 x7 x12 x13 x14 x15) p) (matOf x8) k + vecOf x9 k := by
    intro k
    rw [val_main_v61_apply, val_main_v60_apply, val_main_v59_apply, e9, val_main_v58_apply, Ideal.addf_def]
    unfold rowDot
    refine congrArg (· + x9 (ix1 k)) (Finset.sum_congr rfl fun j _ => ?_)
    rw [val_main_v57_apply, e47, e8]
  -- read the stages from the choice down to the second layer's sum
  rw [val_main_v69_apply, val_main_call2_v0_apply, val_main_v68_apply, e56, val_main_call2_v1_apply, val_main_cst_11_apply,
    val_main_v67_apply, val_main_call1_v0_apply, val_main_call1_cst_apply, val_main_v66_apply, val_main_v65_apply,
    val_main_v64_apply, e11, val_main_v63_apply, select_bit, Ideal.maximumf_def, Ideal.addf_def, Ideal.ofBits_def,
    Ideal.ofBits_zero_f32]
  -- both sides choose by the same bit; where it is set, compare the second layer term by term
  refine congrArg (fun t => if val_main_v56 (F := Ideal) x15 (ix1 p) = 1#1 then t else 0) ?_
  unfold nodeRow
  refine congrArg (fun s => max (s + x11 (ix1 d)) 0) (Finset.sum_congr rfl fun k _ => ?_)
  rw [h61 k, val_main_v62_apply, e10]

end Cert.MsgPass

end
-- ==== Proof.LibScatterMark.lean ====
/-
  Marking by a replacing scatter.  Scattering ONE constant `a1` into an array that holds ONE constant `a0` everywhere,
  with the update replacing the element, leaves `a1` exactly at the positions some in-range index names and `a0`
  elsewhere — whatever the order of the updates and however often a position is named.  So the same scatter done with
  two pairs of constants marks the same positions: the result over `(a0, a1)` is read off the result over `(b0, b1)`.
-/
import Idealize.ShloMosaic.PureOps

noncomputable section

namespace Cert.MsgPass

open Idealize.ShloMosaic

/-- The invariant of a marking fold, abstractly.  Let one step of a fold over functions `κ → α` set the entry at `j` to `a1`
    when the step's target `g n` is `j`, and leave the entry at `j` alone otherwise.  Then after the steps of a list `L` the
    entry at `j` is `a1` if some `n ∈ L` has target `j`, and is the starting entry if none has: a later step never undoes
    a mark, because every step that touches `j` writes the same `a1`. -/
private theorem foldl_mark {ι κ α : Type} (g : ι → Option κ) (a1 : α) (j : κ) (step : (κ → α) → ι → (κ → α))
    (hstep : ∀ r n, (g n = some j → step r n j = a1) ∧ (g n ≠ some j → step r n j = r j))
    (L : List ι) (r : κ → α) :
    ((∃ n ∈ L, g n = some j) → L.foldl step r j = a1) ∧ ((¬ ∃ n ∈ L, g n = some j) → L.foldl step r j = r j) := by
  induction L generalizing r with
  | nil =>
    refine ⟨?_, fun _ => rfl⟩
    rintro ⟨n, hn, _⟩
    exact absurd hn (List.not_mem_nil)
  | cons n L ih =>
    rw [List.foldl_cons]
    refine ⟨?_, ?_⟩
    · rintro ⟨m, hm, hgm⟩
      by_cases hL : ∃ m ∈ L, g m = some j
      · exact (ih (step r n)).1 hL
      · -- no later step names `j`, so the step that does is the first one
        rw [(ih (step r n)).2 hL]
        rcases List.mem_cons.1 hm with rfl | hmL
        · exact (hstep r m).1 hgm
        · exact absurd ⟨m, hmL, hgm⟩ hL
    · intro hno
      have hL : ¬ ∃ m ∈ L, g m = some j := fun ⟨m, hmL, hgm⟩ => hno ⟨m, List.mem_cons_of_mem _ hmL, hgm⟩
      have hn : g n ≠ some j := fun hgn => hno ⟨n, List.mem_cons_self .., hgn⟩
      rw [(ih (step r n)).2 hL]
      exact (hstep r n).2 hn

/-- A replacing scatter of the constant `a1` into the constant array `a0`, read at `j`: `a1` iff some update's result
    index is `j`. -/
theorem scatter_const_apply {α : Type} {s si u : Shape} {w : Nat} (d : ScatterDims s si u) (a0 a1 : α) (idx : IVec si w)
    (j : s.Idx) [Decidable (∃ n : Fin u.numel, d.resultIdx? (u.rowMajor.symm n) idx = some j)] :
    Host.scatter d (fun _ b => b) (fun _ => a0) idx (fun _ => a1) j
      = if ∃ n : Fin u.numel, d.resultIdx? (u.rowMajor.symm n) idx = some j then a1 else a0 := by
  unfold Host.scatter
  -- one step of the scatter's fold marks `j` exactly when its result index is `j`
  have key := foldl_mark (fun n : Fin u.numel => d.resultIdx? (u.rowMajor.symm n) idx) a1 j
    (fun (r : s.Idx → α) (n : Fin u.numel) =>
      match d.resultIdx? (u.rowMajor.symm n) idx with
      | some i => fun i' => if i' = i then (fun (_ : α) (b : α) => b) (r i) ((fun _ => a1) (u.rowMajor.symm n)) else r i'
      | none => r)
    (by
      intro r n
      dsimp only
      cases hres : d.resultIdx? (u.rowMajor.symm n) idx with
      | none => exact ⟨fun h => (by cases h), fun _ => rfl⟩
      | some i =>
        dsimp only
        refine ⟨fun h => ?_, fun h => ?_⟩
        · have hij : j = i := (Option.some.inj h).symm
          rw [if_pos hij]
        · have hij : ¬ j = i := fun e => h (by rw [e])
          rw [if_neg hij])
    (List.finRange u.numel) (fun _ => a0)
  by_cases h : ∃ n : Fin u.numel, d.resultIdx? (u.rowMajor.symm n) idx = some j
  · rw [if_pos h]
    obtain ⟨n, hn⟩ := h
    exact key.1 ⟨n, List.mem_finRange n, hn⟩
  · rw [if_neg h]
    exact key.2 (fun ⟨n, _, hn⟩ => h ⟨n, hn⟩)

/-- The same positions are marked whatever the two constants: the scatter over `(a0, a1)` read off the scatter over
    `(b0, b1)`, for distinct `b0 ≠ b1`. -/
theorem scatter_const_pair {α β : Type} [DecidableEq β] {s si u : Shape} {w : Nat} (d : ScatterDims s si u) (a0 a1 : α)
    (b0 b1 : β) (hb : b0 ≠ b1) (idx : IVec si w) (j : s.Idx) :
    Host.scatter d (fun _ b => b) (fun _ => a0) idx (fun _ => a1) j
      = if Host.scatter d (fun _ b => b) (fun _ => b0) idx (fun _ => b1) j = b1 then a1 else a0 := by
  haveI : Decidable (∃ n : Fin u.numel, d.resultIdx? (u.rowMajor.symm n) idx = some j) := Classical.propDecidable _
  rw [scatter_const_apply d a0 a1 idx j, scatter_const_apply d b0 b1 idx j]
  by_cases h : ∃ n : Fin u.numel, d.resultIdx? (u.rowMajor.symm n) idx = some j
  · rw [if_pos h, if_pos h, if_pos rfl]
  · rw [if_neg h, if_neg h, if_neg hb]

end Cert.MsgPass

end
-- ==== Proof.IndexRange.lean ====
/-
  What the precondition says about the three lookup index vectors.  The precondition is a conjunction (a chain of
  `and`s of one-bit words) of "every entry of a float input is finite" for the twelve float inputs and, for each of the
  three lookup index vectors, "every entry is `≥ 0` and `< N`" (signed compares) with `N` the number of rows of the
  table it indexes: 8, 400000 and 401.  If the whole is the set bit, each conjunct is, and each `all` over a vector
  gives the fact entry by entry.
-/
import proofs.«427528_j67345087201450_2_alg».proof.Proof.Gen.Pre_finite_inputs
import proofs.«427528_j67345087201450_2_alg».proof.Proof.RowSpec
import Idealize.ShloMosaic.Lib.StableHlo.Predicate
import Idealize.ShloMosaic.Lib.ReduceAll
import Idealize.ShloMosaic.Lib.ValueIdx

noncomputable section

namespace Cert.MsgPass

open Cert.Pre_finite_inputs Idealize.ShloMosaic Idealize.ShloMosaic.ValueIdx

/-- The scalar shape has one index. -/
private instance subsingleton_scalar_idx : Subsingleton S_.Idx := ⟨fun a b => funext fun d => d.elim0⟩

/-- A pointwise `and` of one-bit arrays that is the set bit at an index: both operands are, there. -/
private theorem andi_apply_eq_one {s : Shape} {x y : IVec s 1} {i : s.Idx} (e : andi x y i = 1#1) :
    x i = 1#1 ∧ y i = 1#1 := by
  have e' : IntOp.andi (x i) (y i) = 1#1 := e
  exact IntOp.andi_eq_one.1 e'

/-- One index conjunct read back: if "every entry is `≥ 0` and `< N`" (signed compares against the broadcast constants,
    joined entrywise by `and` and reduced by `and` over the whole vector) is the set bit, then every entry, read as a
    signed integer, lies in `[0, n)`, where `n` is the signed reading of the word `N`. -/
private theorem inRange_of_all (a : IVec S1000000 32) (N : BitVec 32) (n : Int) (hn : N.toInt = n)
    (hb : S_.BroadcastsInDim S1000000 (![] : Fin 0 → Fin S1000000.rank)) (hr : S1000000.ReducesTo [0] S_)
    (hu : 0 < S_.numel) (j : S_.Idx)
    (e : Host.reduce IntOp.andi
          (andi (cmpi .sge a (broadcastInDim S1000000 ![] hb (constantI S_ 32 0#32)))
            (cmpi .slt a (broadcastInDim S1000000 ![] hb (constantI S_ 32 N))))
          (constantI S_ 1 1#1) hr hu j = 1#1) :
    InRange n a := by
  intro k
  -- the reduce by `and` over all entries is set, so the entry at `k` is
  have hk := Host.reduce_andi_all _ _ hr hu j e (ix1 k)
  obtain ⟨hge, hlt⟩ := andi_apply_eq_one hk
  -- the two signed compares at that entry; a broadcast constant reads the constant everywhere
  have hge' : (0#32 : BitVec 32).toInt ≤ (a (ix1 k)).toInt := IntOp.cmpi_sge.1 hge
  have hlt' : (a (ix1 k)).toInt < N.toInt := IntOp.cmpi_slt.1 hlt
  have h0 : (0#32 : BitVec 32).toInt = 0 := by decide
  rw [h0] at hge'
  rw [hn] at hlt'
  exact ⟨hge', hlt'⟩

theorem index_ranges (a0 : FVec Ideal S8x64 .f32) (a1 : FVec Ideal S8x50000x64 .f32) (a2 a3 a4 : FVec Ideal S64x64 .f32)
    (a5 : FVec Ideal S64 .f32) (a6 : FVec Ideal S1x64 .f32) (a7 : FVec Ideal S401x64 .f32) (a8 : FVec Ideal S64x64 .f32)
    (a9 : FVec Ideal S64 .f32) (a10 : FVec Ideal S64x64 .f32) (a11 : FVec Ideal S64 .f32) (a12 a13 a14 a15 : IVec S1000000 32)
    (h : Cert.Pre_finite_inputs.fn (F := Ideal) a0 a1 a2 a3 a4 a5 a6 a7 a8 a9 a10 a11 a12 a13 a14 a15 = fun _ => 1#1) :
    InRange 8 a12 ∧ InRange 400000 a13 ∧ InRange 401 a14 := by
  -- the precondition's one entry
  have h0 := congrFun h ValueIdx.ix0
  dsimp only [fn, fn_part1, fn_part2, fn_part3, fn_part4] at h0
  -- the conjunction from the outside in: the last three conjuncts are the index vectors'
  obtain ⟨h1, c14⟩ := andi_apply_eq_one h0
  obtain ⟨h2, c13⟩ := andi_apply_eq_one h1
  obtain ⟨_, c12⟩ := andi_apply_eq_one h2
  exact ⟨inRange_of_all a12 8#32 8 (by decide) _ _ _ _ c12,
    inRange_of_all a13 400000#32 400000 (by decide) _ _ _ _ c13,
    inRange_of_all a14 401#32 401 (by decide) _ _ _ _ c14⟩

end Cert.MsgPass

end
-- ==== Proof.Bridge.lean ====
/-
  The two programs compute one function.

  The reference's stages are the kernel's whole-array functions: its three row fetches are the plain clamped fetches
  at the wrapped indices (`headRows`, `relRows`, `queryRows`); its message array is `edgeWhole` of them (`messages`); its
  summed messages are the same accumulating scatter at the same raw destination indices (`sumMessages`).  The one
  difference is how a node's mark is used: the kernel multiplies the new row by a mark that is the NUMBER 1 or 0 (ones
  scattered over zeros), the reference keeps the new row where a BIT is set (set bits scattered over cleared ones) and
  puts 0 elsewhere.  The two scatters are at the same wrapped indices, so they mark the same nodes; and over the
  extended reals `x * 1 = x` and `x * 0 = 0` for every `x`, infinite ones included.  So the two results agree at every
  entry, and the final reshape is the same on both sides.
-/
import proofs.«427528_j67345087201450_2_alg».proof.Proof.KernelValue
import proofs.«427528_j67345087201450_2_alg».proof.Proof.RefEdge
import proofs.«427528_j67345087201450_2_alg».proof.Proof.RefNode
import proofs.«427528_j67345087201450_2_alg».proof.Proof.LibScatterMark
import proofs.«427528_j67345087201450_2_alg».proof.Proof.IndexRange
import Idealize.ShloMosaic.Lib.StableHlo.Predicate
import Idealize.ShloMosaic.Lib.Pipeline.Value

noncomputable section

set_option maxRecDepth 16384

namespace Cert.MsgPass

open Cert.KernelIdeal Cert.KernelIdeal.Gen Cert.ReferenceIdeal.ReadP
open Idealize.ShloMosaic Idealize.ShloMosaic.TcCoe Idealize.SL.Sem Idealize.ShloMosaic.ValueIdx

/-! ## Small facts -/

/-- The word `0x3F800000` is the number one. -/
theorem ofBits_one_f32 : Ideal.ofBits .f32 0x3F800000#32 = 1 := by
  simp [Ideal.ofBits, Ideal.ieee, -EReal.coe_mul]; norm_num

/-- A vector laid out as a column reads, at row `p`, the vector at `p`. -/
theorem shapeCast_col_apply {a : ℕ} {α : Type} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The wrapped indices are the same terms in the two programs -/

theorem wrap_sub (a : IVec S1000000 32) : val_main_v6 (F := Ideal) a = wrapIdx 400000#32 a := by
  unfold val_main_v6 val_main_v5 val_main_v2 val_main_v4 val_main_v1 val_main_v3 val_main_c val_main_c_0 wrapIdx
  rfl
theorem wrap_rel (a : IVec S1000000 32) : val_main_v13 (F := Ideal) a = wrapIdx 401#32 a := by
  unfold val_main_v13 val_main_v12 val_main_v9 val_main_v11 val_main_v8 val_main_v10 val_main_c_1 val_main_c_2 wrapIdx
  rfl
theorem wrap_bat (a : IVec S1000000 32) : val_main_v20 (F := Ideal) a = wrapIdx 8#32 a := by
  unfold val_main_v20 val_main_v19 val_main_v16 val_main_v18 val_main_v15 val_main_v17 val_main_c_3 val_main_c_4 wrapIdx
  rfl
theorem wrap_obj (a : IVec S1000000 32) : val_main_v54 (F := Ideal) a = wrapIdx 400000#32 a := by
  unfold val_main_v54 val_main_v53 val_main_v50 val_main_v52 val_main_v49 val_main_v51 val_main_c_8 val_main_c_9 wrapIdx
  rfl

variable (m : (ℓ : Loc nD τ sig) → Buf (Elt Ideal) ℓ) (c : Dev nD)

/-! ## The reference's stages as the kernel's whole-array functions -/

theorem ref_head : val_main_v7 (F := Ideal) (m ((c : Thread nD τ).loc main_arg1)) (m ((c : Thread nD τ).loc main_arg13)) = headRows m c := by
  unfold val_main_v7 val_main_v0 headRows
  rw [wrap_sub]
  rfl
theorem ref_rel : val_main_v14 (F := Ideal) (m ((c : Thread nD τ).loc main_arg7)) (m ((c : Thread nD τ).loc main_arg14)) = relRows m c := by
  unfold val_main_v14 relRows
  rw [wrap_rel]
  rfl
theorem ref_query : val_main_v21 (F := Ideal) (m ((c : Thread nD τ).loc main_arg0)) (m ((c : Thread nD τ).loc main_arg12)) = queryRows m c := by
  unfold val_main_v21 queryRows
  rw [wrap_bat]
  rfl

theorem ref_messages : val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) = messages m c := by
  refine (ref_message _ _ _ _ _ _ _ _ _ _ _).trans ?_
  rw [ref_head m c, ref_rel m c, ref_query m c]
  rfl

theorem ref_sum : val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15))
    = sumMessages (m ((c : Thread nD τ).loc main_arg15)) (messages m c) := by
  unfold val_main_v47
  rw [ref_messages m c]
  unfold val_main_v45 val_main_v46 val_main_cst_6 sumMessages
  rfl

/-! ## The marks -/

/-- The kernel's mark of node `p` is 1 where the reference's bit is set and 0 where it is not: the two replacing
    scatters go to the same wrapped indices. -/
theorem mark_eq (p : Fin 400000) :
    markCol (F := Ideal) (m ((c : Thread nD τ).loc main_arg15)) (ix2 p 0) = if val_main_v56 (F := Ideal) (m ((c : Thread nD τ).loc main_arg15)) (ix1 p) = 1#1 then (1 : EReal) else 0 := by
  unfold markCol
  rw [shapeCast_col_apply]
  unfold markVec val_main_v56
  rw [wrap_obj]
  have hz : (broadcastInDim S400000 ![] bcast_S_S400000 (constant (F := Ideal) S_ .f32 0x00000000#32))
      = fun _ => (0 : EReal) := by
    funext j
    rw [StableHlo.Predicate.bcast_scalar _ (by decide)]
    exact Ideal.ofBits_zero_f32
  have ho : (broadcastInDim S1000000 ![] bcast_S_S1000000 (constant (F := Ideal) S_ .f32 0x3F800000#32))
      = fun _ => (1 : EReal) := by
    funext j
    rw [StableHlo.Predicate.bcast_scalar _ (by decide)]
    exact ofBits_one_f32
  have hz' : (val_main_v48 (F := Ideal)) = fun _ => (0#1 : BitVec 1) := by
    unfold val_main_v48 val_main_c_7
    funext j
    rw [StableHlo.Predicate.bcast_scalar _ (by decide)]
    rfl
  have ho' : (val_main_v55 (F := Ideal)) = fun _ => (1#1 : BitVec 1) := by
    unfold val_main_v55 val_main_c_10
    funext j
    rw [StableHlo.Predicate.bcast_scalar _ (by decide)]
    rfl
  rw [hz, ho, hz', ho']
  exact scatter_const_pair _ (0 : EReal) 1 (0#1 : BitVec 1) 1#1 (by decide) _ _

/-! ## The results -/

theorem rows_eq : val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = newRows m c := by
  funext i
  obtain ⟨p, d, rfl⟩ : ∃ (p : Fin 400000) (d : Fin 64), i = ix2 p d := ⟨i 0, i 1, eq_ix2 i⟩
  rw [ref_result, ref_sum m c]
  unfold newRows
  rw [nodeWhole_apply, mark_eq m c p]
  split
  · rw [mul_one]
  · rw [mul_zero]

/-- From memories that agree on the sixteen argument arrays and satisfy the precondition, the reference's result term is the
    kernel's result buffer at the return. -/
theorem results_agree (ρ : Dev nD → PrngReg)
    (m' : (ℓ : Loc Cert.ReferenceIdeal.nD Cert.ReferenceIdeal.τ Cert.ReferenceIdeal.sig) → Buf (Elt Ideal) ℓ)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.ValueP.res_main_v70 m' c = W8 m ρ c (Proc.devRef .tc main_v19) := by
  have hr := index_ranges _ _ _ _ _ _ _ _ _ _ _ _ _ _ _ _ hpre
  rw [val_main_v70_eq (F := Ideal) m' c]
  rw [h0, h1, h2, h3, h4, h5, h6, h7, h8, h9, h10, h11, h12, h13, h14, h15]
  unfold val_main_v70
  rw [rows_eq m c]
  exact (result_eq m ρ c hr.1 hr.2.1 hr.2.2).symm

end Cert.MsgPass

end
-- ==== Proof.lean ====
/-
  Message passing on a graph: the kernel's program against its reference, over the extended reals.

  Both programs gather a head row, a relation row and a query row for each of a million edges, form the edge's message
  (the entrywise product of head and relation rows, scaled by a logistic gate of a small two-layer contraction of the three
  rows), add the messages into the 400000 destination nodes, and pass each node's sum through a two-layer perceptron, the
  result kept only at nodes that received a message.  The kernel's program does the per-edge and per-node arithmetic in two
  launches over blocks of 5000 rows; the reference does it on whole arrays.  They differ in two ways that do not change the
  result: the kernel's row lookups replace a row whose index lies outside its table by a fill value, which the precondition's
  index ranges (every lookup index inside its table) rule out, after which both lookups are the same clamped fetch; and the
  kernel multiplies by a 0/1 mark where the reference selects by a bit, which agree entry by entry because the two marks are
  scattered to the same indices and `x * 1 = x`, `x * 0 = 0` hold for every extended real.  No other law is used: the sums are
  the same sums in the same association on both sides, so the inputs' finiteness is never opened.

  The three frames are the generated ones (the reference's is its run with the result dropped); the ideal pass recorded no
  rewrite, so there is nothing to preserve.
-/
import proofs.«427528_j67345087201450_2_alg».proof.Defs
import proofs.«427528_j67345087201450_2_alg».proof.Proof.Gen.Kernel
import proofs.«427528_j67345087201450_2_alg».proof.Proof.Gen.Kernel.Skeleton
import proofs.«427528_j67345087201450_2_alg».proof.Proof.Gen.Kernel.Launch
import proofs.«427528_j67345087201450_2_alg».proof.Proof.Gen.Kernel.Points
import proofs.«427528_j67345087201450_2_alg».proof.Proof.Gen.Kernel.Frame
import proofs.«427528_j67345087201450_2_alg».proof.Proof.Gen.KernelIdeal
import proofs.«427528_j67345087201450_2_alg».proof.Proof.Gen.KernelIdeal.Skeleton
import proofs.«427528_j67345087201450_2_alg».proof.Proof.Gen.KernelIdeal.Launch
import proofs.«427528_j67345087201450_2_alg».proof.Proof.Gen.KernelIdeal.Points
import proofs.«427528_j67345087201450_2_alg».proof.Proof.Gen.KernelIdeal.Frame
import proofs.«427528_j67345087201450_2_alg».proof.Proof.Gen.ReferenceIdeal
import proofs.«427528_j67345087201450_2_alg».proof.Proof.Gen.Pre_finite_inputs
import proofs.«427528_j67345087201450_2_alg».proof.Proof.KernelRun
import proofs.«427528_j67345087201450_2_alg».proof.Proof.RefRun
import proofs.«427528_j67345087201450_2_alg».proof.Proof.RefRead
import proofs.«427528_j67345087201450_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The two idealized programs, from memories agreeing on the arguments, end with equal results: the kernel's result buffer
    at the return on one side, the reference's result term on the other, one function of the arguments. -/
theorem algebraic : Cert.algebraic_KernelIdeal_ReferenceIdeal := by
  intro m ρ m' ρ' hpre hagree
  refine ⟨fun c => Cert.KernelIdeal.Gen.W8 m ρ c (Proc.devRef .tc Cert.KernelIdeal.main_v19),
    Cert.KernelIdeal.GenP.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15⟩ := hagree c
  exact Cert.MsgPass.results_agree m c ρ m' (hpre c) h0 h1 h2 h3 h4 h5 h6 h7 h8 h9 h10 h11 h12 h13 h14 h15

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
